-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x96x96 : Shape := ⟨4, ![32, 256, 96, 96]⟩
abbrev S32x256x2 : Shape := ⟨3, ![32, 256, 2]⟩
abbrev S_ : Shape := ⟨0, ![]⟩

class Facts : Prop where
  bcast_S_S32x256x96x96 : S_.BroadcastsInDim S32x256x96x96 (![] : Fin 0 → Fin S32x256x96x96.rank)
  reducesTo_S32x256x96x96_S_d0_1_2_3 : S32x256x96x96.ReducesTo [0, 1, 2, 3] S_
  h_S_ : 0 < S_.numel
  bcast_S_S32x256x2 : S_.BroadcastsInDim S32x256x2 (![] : Fin 0 → Fin S32x256x2.rank)
  reducesTo_S32x256x2_S_d0_1_2 : S32x256x2.ReducesTo [0, 1, 2] S_

variable [Facts]

def fn {F : FTy → Type} [FloatOps F] (main_arg0 : FVec F S32x256x96x96 .f32) (main_arg1 : IVec S32x256x2 32) : IVec S_ 1 :=
  let main_v0 : FVec F S32x256x96x96 .f32 := Host.absf main_arg0
  let main_cst : FVec F S_ .f32 := constant S_ .f32 0x7F800000#32
  let main_v1 : FVec F S32x256x96x96 .f32 := broadcastInDim S32x256x96x96 ![] bcast_S_S32x256x96x96 main_cst
  let main_v2 : IVec S32x256x96x96 1 := cmpf .olt main_v0 main_v1
  let main_c : IVec S_ 1 := constantI S_ 1 1#1
  let main_v3 : IVec S_ 1 := (fun x v => Host.reduce IntOp.andi x v reducesTo_S32x256x96x96_S_d0_1_2_3 h_S_) main_v2 main_c
  let main_c_0 : IVec S_ 32 := constantI S_ 32 0#32
  let main_v4 : IVec S32x256x2 32 := broadcastInDim S32x256x2 ![] bcast_S_S32x256x2 main_c_0
  let main_v5 : IVec S32x256x2 1 := cmpi .sge main_arg1 main_v4
  let main_c_1 : IVec S_ 32 := constantI S_ 32 96#32
  let main_v6 : IVec S32x256x2 32 := broadcastInDim S32x256x2 ![] bcast_S_S32x256x2 main_c_1
  let main_v7 : IVec S32x256x2 1 := cmpi .slt main_arg1 main_v6
  let main_v8 : IVec S32x256x2 1 := andi main_v5 main_v7
  let main_c_2 : IVec S_ 1 := constantI S_ 1 1#1
  let main_v9 : IVec S_ 1 := (fun x v => Host.reduce IntOp.andi x v reducesTo_S32x256x2_S_d0_1_2 h_S_) main_v8 main_c_2
  let main_v10 : IVec S_ 1 := andi main_v3 main_v9
  main_v10
-- ==== Kernel.lean ====
abbrev S32x256x96x96 : Shape := ⟨4, ![32, 256, 96, 96]⟩
abbrev S32x256x2 : Shape := ⟨3, ![32, 256, 2]⟩
abbrev S8192x96x96 : Shape := ⟨3, ![8192, 96, 96]⟩
abbrev S8192x2 : Shape := ⟨2, ![8192, 2]⟩
abbrev S8192x1 : Shape := ⟨2, ![8192, 1]⟩
abbrev S128x96x96 : Shape := ⟨3, ![128, 96, 96]⟩
abbrev S128x2 : Shape := ⟨2, ![128, 2]⟩
abbrev S128x1 : Shape := ⟨2, ![128, 1]⟩
abbrev S128 : Shape := ⟨1, ![128]⟩
abbrev S128x96 : Shape := ⟨2, ![128, 96]⟩
abbrev S128x96x1 : Shape := ⟨3, ![128, 96, 1]⟩
abbrev S128x1x96 : Shape := ⟨3, ![128, 1, 96]⟩
abbrev S128x1x1 : Shape := ⟨3, ![128, 1, 1]⟩
abbrev S32x256 : Shape := ⟨2, ![32, 256]⟩
abbrev S_ : Shape := ⟨0, ![]⟩
abbrev S32 : Shape := ⟨1, ![32]⟩
abbrev S32x1 : Shape := ⟨2, ![32, 1]⟩

abbrev nBuf : Space → Nat
  | .hbm => 17
  | .vmem => 6
  | .smem => 0
  | _ => 0

abbrev bufTy : (tb : Table) → Fin (tcTables nBuf tb) → BufTy
  | .hbm, ⟨0, _⟩ => ⟨S32x256x96x96, .f32⟩
  | .hbm, ⟨1, _⟩ => ⟨S32x256x2, .i32⟩
  | .hbm, ⟨2, _⟩ => ⟨S8192x96x96, .f32⟩
  | .hbm, ⟨3, _⟩ => ⟨S8192x2, .i32⟩
  | .hbm, ⟨4, _⟩ => ⟨S8192x1, .f32⟩
  | .hbm, ⟨5, _⟩ => ⟨S32x256, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x256, .f32⟩
  | .hbm, ⟨16, _⟩ => ⟨S32x256, .f32⟩
  | .local _ .vmem, ⟨0, _⟩ => ⟨S128x96x96, .f32⟩
  | .local _ .vmem, ⟨1, _⟩ => ⟨S128x96x96, .f32⟩
  | .local _ .vmem, ⟨2, _⟩ => ⟨S128x2, .i32⟩
  | .local _ .vmem, ⟨3, _⟩ => ⟨S128x2, .i32⟩
  | .local _ .vmem, ⟨4, _⟩ => ⟨S128x1, .f32⟩
  | .local _ .vmem, ⟨5, _⟩ => ⟨S128x1, .f32⟩
  | _, _ => ⟨S32x256x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x96x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x256x96x96_S8192x96x96 : S32x256x96x96.ShapeCasts S8192x96x96
  shapeCasts_S32x256x2_S8192x2 : S32x256x2.ShapeCasts S8192x2
  inb_S128x2_S128x1_0_0 : ∀ a, (![0, 0] : Fin 2 → Nat) a + S128x1.size a ≤ S128x2.size a
  h_S128x1 : 0 < S128x1.numel
  shapeCasts_S128x1_S128 : S128x1.ShapeCasts S128
  inb_S128x2_S128x1_0_1 : ∀ a, (![0, 1] : Fin 2 → Nat) a + S128x1.size a ≤ S128x2.size a
  iota_S128x96_d1_w32 : S128x96.Iotas .tc 32 [1]
  shapeCasts_S128_S128x1 : S128.ShapeCasts S128x1
  broadcasts_S128x1_S128x96 : S128x1.Broadcasts S128x96
  natLt_1_32 : 1 < 32
  shapeCasts_S128x96_S128x96x1 : S128x96.ShapeCasts S128x96x1
  shapeCasts_S128x96_S128x1x96 : S128x96.ShapeCasts S128x1x96
  broadcasts_S128x96x1_S128x96x96 : S128x96x1.Broadcasts S128x96x96
  broadcasts_S128x1x96_S128x96x96 : S128x1x96.Broadcasts S128x96x96
  inb_S128x96x96_S128x96x96_0_0_0 : ∀ a, (![0, 0, 0] : Fin 3 → Nat) a + S128x96x96.size a ≤ S128x96x96.size a
  h_S128x96x96 : 0 < S128x96x96.numel
  shapeCasts_S128x96x96_S128x96x96 : S128x96x96.ShapeCasts S128x96x96
  reduces_S128x96x96_S128x96 : S128x96x96.Reduces [2] S128x96
  reduces_S128x96x1_S128x1 : S128x96x1.Reduces [1] S128x1
  shapeCasts_S128x1_S128x1x1 : S128x1.ShapeCasts S128x1x1
  shapeCasts_S128x1x1_S128x1 : S128x1x1.ShapeCasts S128x1
  inb_S128x1_S128x1_0_0 : ∀ a, (![0, 0] : Fin 2 → Nat) a + S128x1.size a ≤ S128x1.size a
  shapeCasts_S8192x1_S32x256 : S8192x1.ShapeCasts S32x256
  reducesTo_S32x256_S32_d1 : S32x256.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  bcast_S32x1_S32x256_0_1 : S32x1.BroadcastsInDim S32x256 (![0, 1] : Fin 2 → Fin S32x256.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x96x96.size a ≤ S8192x96x96.size a
  hwx0_0 : ∀ i : grid0.Coords, EltTy.bits .f32 = 32 ∨ (Rect.block (s := S8192x96x96) S128x96x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2.size a ≤ S8192x2.size a
  hwx0_1 : ∀ i : grid0.Coords, EltTy.bits .i32 = 32 ∨ (Rect.block (s := S8192x2) S128x2.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .f32 = 32 ∨ (Rect.block (s := S8192x1) S128x1.size (cc0_transform_2 i) (hinb0_2 i)).WholeWords (EltTy.packing .f32)

variable [Facts₀]

abbrev win0_0 : Pipeline.Window sig grid0 :=
  Pipeline.Window.ofSpec (Memref.whole main_v0) S128x96x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x256x96x96 : Shape := ⟨4, ![32, 256, 96, 96]⟩
abbrev S32x256x2 : Shape := ⟨3, ![32, 256, 2]⟩
abbrev S5 : Shape := ⟨1, ![5]⟩
abbrev S_ : Shape := ⟨0, ![]⟩
abbrev S5x5 : Shape := ⟨2, ![5, 5]⟩
abbrev S25 : Shape := ⟨1, ![25]⟩
abbrev S25x1 : Shape := ⟨2, ![25, 1]⟩
abbrev S25x2 : Shape := ⟨2, ![25, 2]⟩
abbrev S32x256x1x2 : Shape := ⟨4, ![32, 256, 1, 2]⟩
abbrev S1x1x25x2 : Shape := ⟨4, ![1, 1, 25, 2]⟩
abbrev S32x256x25x2 : Shape := ⟨4, ![32, 256, 25, 2]⟩
abbrev S32x256x25x1 : Shape := ⟨4, ![32, 256, 25, 1]⟩
abbrev S32x256x25 : Shape := ⟨3, ![32, 256, 25]⟩
abbrev S8192x25 : Shape := ⟨2, ![8192, 25]⟩
abbrev S8192 : Shape := ⟨1, ![8192]⟩
abbrev S8192x1 : Shape := ⟨2, ![8192, 1]⟩
abbrev S8192x96x96 : Shape := ⟨3, ![8192, 96, 96]⟩
abbrev S8192x25x1 : Shape := ⟨3, ![8192, 25, 1]⟩
abbrev S8192x25x3 : Shape := ⟨3, ![8192, 25, 3]⟩
abbrev S8192x9216 : Shape := ⟨2, ![8192, 9216]⟩
abbrev S32x256 : Shape := ⟨2, ![32, 256]⟩
abbrev S32 : Shape := ⟨1, ![32]⟩
abbrev S32x1 : Shape := ⟨2, ![32, 1]⟩

abbrev nBuf : Space → Nat
  | .hbm => 111
  | .vmem => 0
  | .smem => 0
  | _ => 0

abbrev bufTy : (tb : Table) → Fin (tcTables nBuf tb) → BufTy
  | .hbm, ⟨0, _⟩ => ⟨S32x256x96x96, .f32⟩
  | .hbm, ⟨1, _⟩ => ⟨S32x256x2, .i32⟩
  | .hbm, ⟨2, _⟩ => ⟨S5, .i32⟩
  | .hbm, ⟨3, _⟩ => ⟨S_, .i32⟩
  | .hbm, ⟨4, _⟩ => ⟨S5, .i32⟩
  | .hbm, ⟨5, _⟩ => ⟨S5, .i32⟩
  | .hbm, ⟨6, _⟩ => ⟨S5x5, .i32⟩
  | .hbm, ⟨7, _⟩ => ⟨S5x5, .i32⟩
  | .hbm, ⟨8, _⟩ => ⟨S25, .i32⟩
  | .hbm, ⟨9, _⟩ => ⟨S25, .i32⟩
  | .hbm, ⟨10, _⟩ => ⟨S25x1, .i32⟩
  | .hbm, ⟨11, _⟩ => ⟨S25x1, .i32⟩
  | .hbm, ⟨12, _⟩ => ⟨S25x2, .i32⟩
  | .hbm, ⟨13, _⟩ => ⟨S32x256x1x2, .i32⟩
  | .hbm, ⟨14, _⟩ => ⟨S1x1x25x2, .i32⟩
  | .hbm, ⟨15, _⟩ => ⟨S32x256x25x2, .i32⟩
  | .hbm, ⟨16, _⟩ => ⟨S32x256x25x2, .i32⟩
  | .hbm, ⟨17, _⟩ => ⟨S32x256x25x2, .i32⟩
  | .hbm, ⟨18, _⟩ => ⟨S32x256x25x1, .i32⟩
  | .hbm, ⟨19, _⟩ => ⟨S32x256x25, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S32x256x25, .i32⟩
  | .hbm, ⟨24, _⟩ => ⟨S32x256x25, .i32⟩
  | .hbm, ⟨25, _⟩ => ⟨S_, .i32⟩
  | .hbm, ⟨26, _⟩ => ⟨S32x256x25, .i32⟩
  | .hbm, ⟨27, _⟩ => ⟨S32x256x25, .i32⟩
  | .hbm, ⟨28, _⟩ => ⟨S8192x25, .i32⟩
  | .hbm, ⟨29, _⟩ => ⟨S32x256x25x1, .i32⟩
  | .hbm, ⟨30, _⟩ => ⟨S32x256x25, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S32x256x25, .i32⟩
  | .hbm, ⟨35, _⟩ => ⟨S32x256x25, .i32⟩
  | .hbm, ⟨36, _⟩ => ⟨S_, .i32⟩
  | .hbm, ⟨37, _⟩ => ⟨S32x256x25, .i32⟩
  | .hbm, ⟨38, _⟩ => ⟨S32x256x25, .i32⟩
  | .hbm, ⟨39, _⟩ => ⟨S8192x25, .i32⟩
  | .hbm, ⟨40, _⟩ => ⟨S8192, .i32⟩
  | .hbm, ⟨41, _⟩ => ⟨S8192x1, .i32⟩
  | .hbm, ⟨42, _⟩ => ⟨S8192x25, .i32⟩
  | .hbm, ⟨43, _⟩ => ⟨S_, .f32⟩
  | .hbm, ⟨44, _⟩ => ⟨S8192x96x96, .f32⟩
  | .hbm, ⟨45, _⟩ => ⟨S_, .i32⟩
  | .hbm, ⟨46, _⟩ => ⟨S8192x25, .i32⟩
  | .hbm, ⟨47, _⟩ => ⟨S8192x25, .i1⟩
  | .hbm, ⟨48, _⟩ => ⟨S_, .i32⟩
  | .hbm, ⟨49, _⟩ => ⟨S8192x25, .i32⟩
  | .hbm, ⟨50, _⟩ => ⟨S8192x25, .i32⟩
  | .hbm, ⟨51, _⟩ => ⟨S8192x25, .i32⟩
  | .hbm, ⟨52, _⟩ => ⟨S_, .i32⟩
  | .hbm, ⟨53, _⟩ => ⟨S8192x25, .i32⟩
  | .hbm, ⟨54, _⟩ => ⟨S8192x25, .i1⟩
  | .hbm, ⟨55, _⟩ => ⟨S_, .i32⟩
  | .hbm, ⟨56, _⟩ => ⟨S8192x25, .i32⟩
  | .hbm, ⟨57, _⟩ => ⟨S8192x25, .i32⟩
  | .hbm, ⟨58, _⟩ => ⟨S8192x25, .i32⟩
  | .hbm, ⟨59, _⟩ => ⟨S_, .i32⟩
  | .hbm, ⟨60, _⟩ => ⟨S8192x25, .i32⟩
  | .hbm, ⟨61, _⟩ => ⟨S8192x25, .i1⟩
  | .hbm, ⟨62, _⟩ => ⟨S_, .i32⟩
  | .hbm, ⟨63, _⟩ => ⟨S8192x25, .i32⟩
  | .hbm, ⟨64, _⟩ => ⟨S8192x25, .i32⟩
  | .hbm, ⟨65, _⟩ => ⟨S8192x25, .i32⟩
  | .hbm, ⟨66, _⟩ => ⟨S8192x25x1, .i32⟩
  | .hbm, ⟨67, _⟩ => ⟨S8192x25x1, .i32⟩
  | .hbm, ⟨68, _⟩ => ⟨S8192x25x1, .i32⟩
  | .hbm, ⟨69, _⟩ => ⟨S8192x25x3, .i32⟩
  | .hbm, ⟨70, _⟩ => ⟨S_, .f32⟩
  | .hbm, ⟨71, _⟩ => ⟨S8192x25, .f32⟩
  | .hbm, ⟨72, _⟩ => ⟨S8192x96x96, .f32⟩
  | .hbm, ⟨73, _⟩ => ⟨S8192x9216, .f32⟩
  | .hbm, ⟨74, _⟩ => ⟨S8192x9216, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S8192x9216, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S8192x1, .f32⟩
  | .hbm, ⟨83, _⟩ => ⟨S8192x9216, .f32⟩
  | .hbm, ⟨84, _⟩ => ⟨S8192x9216, .f32⟩
  | .hbm, ⟨85, _⟩ => ⟨S8192x9216, .f32⟩
  | .hbm, ⟨86, _⟩ => ⟨S8192x9216, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x1, .f32⟩
  | .hbm, ⟨97, _⟩ => ⟨S8192x1, .f32⟩
  | .hbm, ⟨98, _⟩ => ⟨S8192x1, .f32⟩
  | .hbm, ⟨99, _⟩ => ⟨S32x256, .f32⟩
  | .hbm, ⟨100, _⟩ => ⟨S_, .f32⟩
  | .hbm, ⟨101, _⟩ => ⟨S32, .f32⟩
  | .hbm, ⟨102, _⟩ => ⟨S32x1, .f32⟩
  | .hbm, ⟨103, _⟩ => ⟨S_, .f32⟩
  | .hbm, ⟨104, _⟩ => ⟨S32x1, .f32⟩
  | .hbm, ⟨105, _⟩ => ⟨S32x1, .f32⟩
  | .hbm, ⟨106, _⟩ => ⟨S_, .f32⟩
  | .hbm, ⟨107, _⟩ => ⟨S32x1, .f32⟩
  | .hbm, ⟨108, _⟩ => ⟨S32x1, .f32⟩
  | .hbm, ⟨109, _⟩ => ⟨S32x256, .f32⟩
  | .hbm, ⟨110, _⟩ => ⟨S32x256, .f32⟩
  | _, _ => ⟨S32x256x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c_0 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_c_3 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_v61 : Ref sig .tc := ⟨.hbm, 89, rfl⟩
abbrev main_cst_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_15 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_16 : Ref sig .tc := ⟨.hbm, 100, rfl⟩
abbrev main_v70 : Ref sig .tc := ⟨.hbm, 101, rfl⟩
abbrev main_v71 : Ref sig .tc := ⟨.hbm, 102, rfl⟩
abbrev main_cst_17 : Ref sig .tc := ⟨.hbm, 103, rfl⟩
abbrev main_v72 : Ref sig .tc := ⟨.hbm, 104, rfl⟩
abbrev main_v73 : Ref sig .tc := ⟨.hbm, 105, rfl⟩
abbrev main_cst_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩

abbrev nD : Nat := 1
abbrev τ : Topo := Topo.v7x

variable {F : FTy → Type} [FloatOps F]

class Facts₀ : Prop where
  bcast_S_S5 : S_.BroadcastsInDim S5 (![] : Fin 0 → Fin S5.rank)
  bcast_S5_S5x5_0 : S5.BroadcastsInDim S5x5 (![0] : Fin 1 → Fin S5x5.rank)
  bcast_S5_S5x5_1 : S5.BroadcastsInDim S5x5 (![1] : Fin 1 → Fin S5x5.rank)
  shapeCasts_S5x5_S25 : S5x5.ShapeCasts S25
  bcast_S25_S25x1_0 : S25.BroadcastsInDim S25x1 (![0] : Fin 1 → Fin S25x1.rank)
  concatenates_S25x1_S25x1_S25x2_d1 : Shape.Concatenates [S25x1, S25x1] S25x2 1
  bcast_S32x256x2_S32x256x1x2_0_1_3 : S32x256x2.BroadcastsInDim S32x256x1x2 (![0, 1, 3] : Fin 3 → Fin S32x256x1x2.rank)
  bcast_S25x2_S1x1x25x2_2_3 : S25x2.BroadcastsInDim S1x1x25x2 (![2, 3] : Fin 2 → Fin S1x1x25x2.rank)
  bcast_S32x256x1x2_S32x256x25x2_0_1_2_3 : S32x256x1x2.BroadcastsInDim S32x256x25x2 (![0, 1, 2, 3] : Fin 4 → Fin S32x256x25x2.rank)
  bcast_S1x1x25x2_S32x256x25x2_0_1_2_3 : S1x1x25x2.BroadcastsInDim S32x256x25x2 (![0, 1, 2, 3] : Fin 4 → Fin S32x256x25x2.rank)
  slices_S32x256x25x2_S32x256x25x1_0_0_0_0 : S32x256x25x2.Slices ![0, 0, 0, 0] S32x256x25x1
  shapeCasts_S32x256x25x1_S32x256x25 : S32x256x25x1.ShapeCasts S32x256x25
  bcast_S_S32x256x25 : S_.BroadcastsInDim S32x256x25 (![] : Fin 0 → Fin S32x256x25.rank)
  shapeCasts_S32x256x25_S8192x25 : S32x256x25.ShapeCasts S8192x25
  slices_S32x256x25x2_S32x256x25x1_0_0_0_1 : S32x256x25x2.Slices ![0, 0, 0, 1] S32x256x25x1
  bcast_S8192_S8192x1_0 : S8192.BroadcastsInDim S8192x1 (![0] : Fin 1 → Fin S8192x1.rank)
  bcast_S8192x1_S8192x25_0_1 : S8192x1.BroadcastsInDim S8192x25 (![0, 1] : Fin 2 → Fin S8192x25.rank)
  bcast_S_S8192x96x96 : S_.BroadcastsInDim S8192x96x96 (![] : Fin 0 → Fin S8192x96x96.rank)
  bcast_S_S8192x25 : S_.BroadcastsInDim S8192x25 (![] : Fin 0 → Fin S8192x25.rank)
  bcast_S8192x25_S8192x25x1_0_1 : S8192x25.BroadcastsInDim S8192x25x1 (![0, 1] : Fin 2 → Fin S8192x25x1.rank)
  concatenates_S8192x25x1_S8192x25x1_S8192x25x1_S8192x25x3_d2 : Shape.Concatenates [S8192x25x1, S8192x25x1, S8192x25x1] S8192x25x3 2
  shapeCasts_S32x256x96x96_S8192x9216 : S32x256x96x96.ShapeCasts S8192x9216
  shapeCasts_S8192x96x96_S8192x9216 : S8192x96x96.ShapeCasts S8192x9216
  reducesTo_S8192x9216_S8192_d1 : S8192x9216.ReducesTo [1] S8192
  h_S_ : 0 < S_.numel
  bcast_S8192x1_S8192x9216_0_1 : S8192x1.BroadcastsInDim S8192x9216 (![0, 1] : Fin 2 → Fin S8192x9216.rank)
  bcast_S_S8192x1 : S_.BroadcastsInDim S8192x1 (![] : Fin 0 → Fin S8192x1.rank)
  shapeCasts_S8192x1_S32x256 : S8192x1.ShapeCasts S32x256
  reducesTo_S32x256_S32_d1 : S32x256.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x256_0_1 : S32x1.BroadcastsInDim S32x256 (![0, 1] : Fin 2 → Fin S32x256.rank)
  scatter_S8192x96x96_S8192x25x3_S8192x25_n_012_012_2_wf : ScatterDims.WF S8192x96x96 S8192x25x3 S8192x25 [] [0, 1, 2] [0, 1, 2] 2

variable [Facts₀]

def scatter_S8192x96x96_S8192x25x3_S8192x25_n_012_012_2 : ScatterDims S8192x96x96 S8192x25x3 S8192x25 where
  updateWindowDims := []
  insertedWindowDims := [0, 1, 2]
  scatterDimsToOperandDims := [0, 1, 2]
  indexVectorDim := 2
  wf := scatter_S8192x96x96_S8192x25x3_S8192x25_n_012_012_2_wf

class Facts : Prop extends Facts₀ where

variable [Facts]
-- ==== Proof.RefRunA.lean ====
/-
  The reference program's run, first part: operations 1 to 38 of the 109.

  They build the table of the 25 offsets, add it to every row's peak, and clip and regroup the two coordinate
  columns.  After them the two clipped columns hold the program's own stages of the peak table, and the cost
  volume is untouched.  The line is read a few operations at a time, so that no step opens more than its own.
-/
import proofs.«430624_j36567351558144_2_alg».proof.Proof.RefRunOps
import proofs.«430624_j36567351558144_2_alg».proof.Proof.RefReadP
import Idealize.ShloMosaic.Lib.Pipeline.Frame
import Idealize.ShloMosaic.Lib.StableHlo.Run

set_option maxRecDepth 8192

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The buffers after a line are those after its tail, from the buffers after its first n operations. -/
private theorem after_split (n : Nat) (l : List (HloOp τ sig (Elt F))) (V : Valuation τ sig (Elt F)) :
    after l V = after (l.drop n) (after (l.take n) V) := by
  rw [← StableHlo.after_append, List.take_append_drop]

set_option maxHeartbeats 4000000 in
theorem partA (V : Valuation τ sig (Elt F)) :
    after (List.take 38 ops) V (Proc.devRef .tc main_v18) = val_main_v18 (F := F) (V (Proc.devRef .tc main_arg1))
    ∧ after (List.take 38 ops) V (Proc.devRef .tc main_v22) = val_main_v22 (F := F) (V (Proc.devRef .tc main_arg1))
    ∧ after (List.take 38 ops) V (Proc.devRef .tc main_arg0) = V (Proc.devRef .tc main_arg0) := by
  -- operations 1 to 11: the table of the 25 offsets
  rw [after_split 11 (List.take 38 ops)]
  generalize hW : after (List.take 11 (List.take 38 ops)) V = W1
  simp only [ops, List.drop_succ_cons, List.drop_zero, List.take_succ_cons, List.take_zero] at hW
  have a9 : W1 (Proc.devRef .tc main_v9) = val_main_v9 (F := F) := by
    rw [← hW]; after_results; rfl
  have a0 : W1 (Proc.devRef .tc main_arg0) = V (Proc.devRef .tc main_arg0) := by
    rw [← hW]; after_results_simp
  have a1 : W1 (Proc.devRef .tc main_arg1) = V (Proc.devRef .tc main_arg1) := by
    rw [← hW]; after_results_simp
  clear hW
  -- operations 12 to 18: peak plus offset, and its first column
  rw [after_split 7 (List.drop 11 (List.take 38 ops))]
  generalize hW : after (List.take 7 (List.drop 11 (List.take 38 ops))) W1 = W2
  simp only [ops, List.drop_succ_cons, List.drop_zero, List.take_succ_cons, List.take_zero] at hW
  have b14 : W2 (Proc.devRef .tc main_v14) = val_main_v14 (F := F) (V (Proc.devRef .tc main_arg1)) := by
    rw [← hW]; after_results; rw [a9, a1]; rfl
  have b16 : W2 (Proc.devRef .tc main_v16) = val_main_v16 (F := F) (V (Proc.devRef .tc main_arg1)) := by
    rw [← hW]; after_results; rw [a9, a1]; rfl
  have b0 : W2 (Proc.devRef .tc main_arg0) = V (Proc.devRef .tc main_arg0) := by
    rw [← hW]; after_results_simp; exact a0
  clear hW a9 a1 a0
  -- operations 19 to 27: the line coordinates clipped and regrouped
  rw [after_split 9 (List.drop 7 (List.drop 11 (List.take 38 ops)))]
  generalize hW : after (List.take 9 (List.drop 7 (List.drop 11 (List.take 38 ops)))) W2 = W3
  simp only [ops, List.drop_succ_cons, List.drop_zero, List.take_succ_cons, List.take_zero] at hW
  have c18 : W3 (Proc.devRef .tc main_v18) = val_main_v18 (F := F) (V (Proc.devRef .tc main_arg1)) := by
    rw [← hW]; after_results; rw [b16]; rfl
  have c14 : W3 (Proc.devRef .tc main_v14) = val_main_v14 (F := F) (V (Proc.devRef .tc main_arg1)) := by
    rw [← hW]; after_results_simp; exact b14
  have c0 : W3 (Proc.devRef .tc main_arg0) = V (Proc.devRef .tc main_arg0) := by
    rw [← hW]; after_results_simp; exact b0
  clear hW b14 b16 b0
  -- operations 28 to 38: the column coordinates clipped and regrouped
  generalize hL : List.drop 9 (List.drop 7 (List.drop 11 (List.take 38 (ops (F := F))))) = L
  simp only [ops, List.drop_succ_cons, List.drop_zero, List.take_succ_cons, List.take_zero] at hL
  subst hL
  refine ⟨?_, ?_, ?_⟩
  · after_results_simp; exact c18
  · after_results; rw [c14]; rfl
  · after_results_simp; exact c0

end Cert.ReferenceIdeal.HandRun

end
-- ==== Proof.RefRunB.lean ====
/-
  The reference program's run, middle part: operations 39 to 71 of the 109.

  They build the row indices and the array of ones, bring the two clipped coordinate columns to their non-negative
  form, join the three index columns into the table of write positions, and write the zeros into the ones.  After
  them the weight array holds the program's own stage of the peak table.
-/
import proofs.«430624_j36567351558144_2_alg».proof.Proof.RefRunOps
import proofs.«430624_j36567351558144_2_alg».proof.Proof.RefReadP
import Idealize.ShloMosaic.Lib.Pipeline.Frame
import Idealize.ShloMosaic.Lib.StableHlo.Run

set_option maxRecDepth 8192

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The buffers after a line are those after its tail, from the buffers after its first n operations. -/
private theorem after_split (n : Nat) (l : List (HloOp τ sig (Elt F))) (V : Valuation τ sig (Elt F)) :
    after l V = after (l.drop n) (after (l.take n) V) := by
  rw [← StableHlo.after_append, List.take_append_drop]

/-- The three index columns joined: the operation over three operands leaves their side-by-side join in its result. -/
theorem join_result (W : Valuation τ sig (Elt F)) :
    (nary (τ := τ) ![main_v42, main_v43, main_v44] main_v45 (fun u => concatenate S8192x25x3 2 [⟨S8192x25x1, u 0⟩, ⟨S8192x25x1, u 1⟩, ⟨S8192x25x1, u 2⟩] concatenates_S8192x25x1_S8192x25x1_S8192x25x1_S8192x25x3_d2) : HloOp τ sig (Elt F)).result W (Proc.devRef .tc main_v45)
      = concatenate S8192x25x3 2 [⟨S8192x25x1, W (Proc.devRef .tc main_v42)⟩, ⟨S8192x25x1, W (Proc.devRef .tc main_v43)⟩, ⟨S8192x25x1, W (Proc.devRef .tc main_v44)⟩] concatenates_S8192x25x1_S8192x25x1_S8192x25x1_S8192x25x3_d2 := by
  rw [StableHlo.nary_result]
  rfl

set_option maxHeartbeats 4000000 in
theorem partB (W : Valuation τ sig (Elt F)) (x1 : (⟨S32x256x2, .i32⟩ : BufTy).Contents (Elt F))
    (h18 : W (Proc.devRef .tc main_v18) = val_main_v18 (F := F) x1)
    (h22 : W (Proc.devRef .tc main_v22) = val_main_v22 (F := F) x1) :
    after (List.take 33 (List.drop 38 ops)) W (Proc.devRef .tc main_v47) = val_main_v47 (F := F) x1
    ∧ after (List.take 33 (List.drop 38 ops)) W (Proc.devRef .tc main_arg0) = W (Proc.devRef .tc main_arg0) := by
  -- operations 39 to 50: the row indices and the array of ones
  rw [after_split 12 (List.take 33 (List.drop 38 ops))]
  generalize hW : after (List.take 12 (List.take 33 (List.drop 38 ops))) W = W5
  simp only [ops, List.drop_succ_cons, List.drop_zero, List.take_succ_cons, List.take_zero] at hW
  have e26 : W5 (Proc.devRef .tc main_v26) = val_main_v26 (F := F) := by
    rw [← hW]; after_results; rfl
  have e31 : W5 (Proc.devRef .tc main_v31) = val_main_v31 (F := F) := by
    rw [← hW]; after_results; rfl
  have e18 : W5 (Proc.devRef .tc main_v18) = val_main_v18 (F := F) x1 := by
    rw [← hW]; after_results_simp; exact h18
  have e22 : W5 (Proc.devRef .tc main_v22) = val_main_v22 (F := F) x1 := by
    rw [← hW]; after_results_simp; exact h22
  have e0 : W5 (Proc.devRef .tc main_arg0) = W (Proc.devRef .tc main_arg0) := by
    rw [← hW]; after_results_simp
  clear hW
  -- operations 51 to 64: the two coordinate columns brought to their non-negative form
  rw [after_split 14 (List.drop 12 (List.take 33 (List.drop 38 ops)))]
  generalize hW : after (List.take 14 (List.drop 12 (List.take 33 (List.drop 38 ops)))) W5 = W6
  simp only [ops, List.drop_succ_cons, List.drop_zero, List.take_succ_cons, List.take_zero] at hW
  have f36 : W6 (Proc.devRef .tc main_v36) = val_main_v36 (F := F) x1 := by
    rw [← hW]; after_results; rw [e18]; rfl
  have f41 : W6 (Proc.devRef .tc main_v41) = val_main_v41 (F := F) x1 := by
    rw [← hW]; after_results; rw [e22]; rfl
  have f26 : W6 (Proc.devRef .tc main_v26) = val_main_v26 (F := F) := by
    rw [← hW]; after_results_simp; exact e26
  have f31 : W6 (Proc.devRef .tc main_v31) = val_main_v31 (F := F) := by
    rw [← hW]; after_results_simp; exact e31
  have f0 : W6 (Proc.devRef .tc main_arg0) = W (Proc.devRef .tc main_arg0) := by
    rw [← hW]; after_results_simp; exact e0
  clear hW e26 e31 e18 e22 e0
  -- operations 65 to 67: the three index columns
  rw [after_split 3 (List.drop 14 (List.drop 12 (List.take 33 (List.drop 38 ops))))]
  generalize hW : after (List.take 3 (List.drop 14 (List.drop 12 (List.take 33 (List.drop 38 ops))))) W6 = W7
  simp only [ops, List.drop_succ_cons, List.drop_zero, List.take_succ_cons, List.take_zero] at hW
  have g42 : W7 (Proc.devRef .tc main_v42) = val_main_v42 (F := F) := by
    rw [← hW]; after_results; rw [f31]; rfl
  have g43 : W7 (Proc.devRef .tc main_v43) = val_main_v43 (F := F) x1 := by
    rw [← hW]; after_results; rw [f36]; rfl
  have g44 : W7 (Proc.devRef .tc main_v44) = val_main_v44 (F := F) x1 := by
    rw [← hW]; after_results; rw [f41]; rfl
  have g26 : W7 (Proc.devRef .tc main_v26) = val_main_v26 (F := F) := by
    rw [← hW]; after_results_simp; exact f26
  have g0 : W7 (Proc.devRef .tc main_arg0) = W (Proc.devRef .tc main_arg0) := by
    rw [← hW]; after_results_simp; exact f0
  clear hW f36 f41 f26 f31 f0
  -- operation 68: the three columns joined into the table of write positions
  rw [after_split 1 (List.drop 3 (List.drop 14 (List.drop 12 (List.take 33 (List.drop 38 ops)))))]
  generalize hW : after (List.take 1 (List.drop 3 (List.drop 14 (List.drop 12 (List.take 33 (List.drop 38 ops)))))) W7 = W8
  simp only [ops, List.drop_succ_cons, List.drop_zero, List.take_succ_cons, List.take_zero] at hW
  have j45 : W8 (Proc.devRef .tc main_v45) = val_main_v45 (F := F) x1 := by
    rw [← hW]; simp only [after_cons, after_nil]; rw [join_result, g42, g43, g44]; rfl
  have j26 : W8 (Proc.devRef .tc main_v26) = val_main_v26 (F := F) := by
    rw [← hW]; after_results_simp; exact g26
  have j0 : W8 (Proc.devRef .tc main_arg0) = W (Proc.devRef .tc main_arg0) := by
    rw [← hW]; after_results_simp; exact g0
  clear hW g42 g43 g44 g26 g0
  -- operations 69 to 71: the zeros written into the ones at the table's positions
  generalize hL : List.drop 1 (List.drop 3 (List.drop 14 (List.drop 12 (List.take 33 (List.drop 38 (ops (F := F))))))) = L
  simp only [ops, List.drop_succ_cons, List.drop_zero, List.take_succ_cons, List.take_zero] at hL
  subst hL
  refine ⟨?_, ?_⟩
  · after_results; rw [j26, j45]; rfl
  · after_results_simp; exact j0

end Cert.ReferenceIdeal.HandRun

end
-- ==== Proof.RefRunC.lean ====
/-
  The reference program's run, last part: operations 72 to 109 of the 109.

  They flatten the cost volume and the weights, form the weighted count and mean, the variance and the maximum, the
  column of ratios, and the last stretch.  After them the result holds the program's last stage of the two arguments.
-/
import proofs.«430624_j36567351558144_2_alg».proof.Proof.RefRunOps
import proofs.«430624_j36567351558144_2_alg».proof.Proof.RefReadP
import Idealize.ShloMosaic.Lib.Pipeline.Frame
import Idealize.ShloMosaic.Lib.StableHlo.Run

set_option maxRecDepth 8192

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The buffers after a line are those after its tail, from the buffers after its first n operations. -/
private theorem after_split (n : Nat) (l : List (HloOp τ sig (Elt F))) (V : Valuation τ sig (Elt F)) :
    after l V = after (l.drop n) (after (l.take n) V) := by
  rw [← StableHlo.after_append, List.take_append_drop]

set_option maxHeartbeats 4000000 in
theorem partC (W : Valuation τ sig (Elt F)) (x0 : (⟨S32x256x96x96, .f32⟩ : BufTy).Contents (Elt F))
    (x1 : (⟨S32x256x2, .i32⟩ : BufTy).Contents (Elt F))
    (h47 : W (Proc.devRef .tc main_v47) = val_main_v47 (F := F) x1)
    (h0 : W (Proc.devRef .tc main_arg0) = x0) :
    after (List.drop 33 (List.drop 38 ops)) W (Proc.devRef .tc main_v77) = val_main_v77 (F := F) x0 x1 := by
  -- operations 72 to 81: the flattened cost volume and weights, the weighted count and mean
  rw [after_split 10 (List.drop 33 (List.drop 38 ops))]
  generalize hW : after (List.take 10 (List.drop 33 (List.drop 38 ops))) W = W8
  simp only [ops, List.drop_succ_cons, List.drop_zero, List.take_succ_cons, List.take_zero] at hW
  have h48 : W8 (Proc.devRef .tc main_v48) = val_main_v48 (F := F) x0 := by
    rw [← hW]; after_results; rw [h0]; rfl
  have h49 : W8 (Proc.devRef .tc main_v49) = val_main_v49 (F := F) x1 := by
    rw [← hW]; after_results; rw [h47]; rfl
  have h51 : W8 (Proc.devRef .tc main_v51) = val_main_v51 (F := F) x1 := by
    rw [← hW]; after_results; rw [h47]; rfl
  have h55 : W8 (Proc.devRef .tc main_v55) = val_main_v55 (F := F) x0 x1 := by
    rw [← hW]; after_results; rw [h0, h47]; rfl
  clear hW
  -- operations 82 to 97: the variance, the maximum, the column of ratios
  rw [after_split 16 (List.drop 10 (List.drop 33 (List.drop 38 ops)))]
  generalize hW : after (List.take 16 (List.drop 10 (List.drop 33 (List.drop 38 ops)))) W8 = W9
  simp only [ops, List.drop_succ_cons, List.drop_zero, List.take_succ_cons, List.take_zero] at hW
  have i68 : W9 (Proc.devRef .tc main_v68) = val_main_v68 (F := F) x0 x1 := by
    rw [← hW]; after_results; rw [h48, h49, h51, h55]; rfl
  clear hW h48 h49 h51 h55
  -- operations 98 to 109: the last stretch
  generalize hL : List.drop 16 (List.drop 10 (List.drop 33 (List.drop 38 (ops (F := F))))) = L
  simp only [ops, List.drop_succ_cons, List.drop_zero] at hL
  subst hL
  after_results; rw [i68]; rfl

end Cert.ReferenceIdeal.HandRun

end
-- ==== Proof.RefRun.lean ====
/-
  The reference program's run.

  The program is a straight line of 109 host operations; its buffers after the run are the fold of the operations'
  results over the launch contents.  The line is read in three parts (operations 1 to 38, 39 to 71, 72 to 109): after
  the first the two clipped coordinate columns hold their stages of the peak table, after the second the weight array
  holds its stage, after the third the result holds the program's last stage of the two arguments.  No operation
  writes an argument.
-/
import proofs.«430624_j36567351558144_2_alg».proof.Proof.RefRunOps
import proofs.«430624_j36567351558144_2_alg».proof.Proof.RefReadP
import proofs.«430624_j36567351558144_2_alg».proof.Proof.RefRunA
import proofs.«430624_j36567351558144_2_alg».proof.Proof.RefRunB
import proofs.«430624_j36567351558144_2_alg».proof.Proof.RefRunC
import Idealize.ShloMosaic.Lib.Pipeline.Frame
import Idealize.ShloMosaic.Lib.StableHlo.Run

set_option maxRecDepth 8192

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The buffers after a line are those after its tail, from the buffers after its first n operations. -/
private theorem after_split (n : Nat) (l : List (HloOp τ sig (Elt F))) (V : Valuation τ sig (Elt F)) :
    after l V = after (l.drop n) (after (l.take n) V) := by
  rw [← StableHlo.after_append, List.take_append_drop]

/-- The result buffer after the whole line is the program's last stage of the two arguments. -/
theorem after_ops (V : Valuation τ sig (Elt F)) :
    after ops V (Proc.devRef .tc main_v77)
      = val_main_v77 (F := F) (V (Proc.devRef .tc main_arg0)) (V (Proc.devRef .tc main_arg1)) := by
  rw [after_split 38 ops, after_split 33 (List.drop 38 ops)]
  obtain ⟨a18, a22, a0⟩ := partA V
  obtain ⟨b47, b0⟩ := partB (after (List.take 38 ops) V) (V (Proc.devRef .tc main_arg1)) a18 a22
  exact partC _ _ _ b47 (b0.trans a0)

set_option maxHeartbeats 4000000 in
/-- No operation of the line writes the first argument. -/
theorem kept_arg0 (V : Valuation τ sig (Elt F)) :
    after ops V (Proc.devRef .tc main_arg0) = V (Proc.devRef .tc main_arg0) := by
  after_results_simp

set_option maxHeartbeats 4000000 in
/-- No operation of the line writes the second argument. -/
theorem kept_arg1 (V : Valuation τ sig (Elt F)) :
    after ops V (Proc.devRef .tc main_arg1) = V (Proc.devRef .tc main_arg1) := by
  after_results_simp

/-- On every device, from any memory with zero counters: every weakly fair execution of the reference terminates with
    the result at the program's last stage of the two arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77)
        = val_main_v77 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v77).trans (after_ops _),
      (h c main_arg0).trans (kept_arg0 _),
      (h c main_arg1).trans (kept_arg1 _)⟩)
    (run_seq scopedRefs_eq scopedSems_eq defs main (fun _ => ops) main_eq (fun _ => ops_sub) m ρ)

end Cert.ReferenceIdeal.HandRun

end
-- ==== Proof.Spec.lean ====
/-
  The peak-to-sidelobe ratio of one row, written twice: as the kernel arranges it and as the reference does.

  A row is one 96 x 96 plane of the cost volume together with the two coordinates (py, px) of its peak.  The
  mainlobe is the 5 x 5 window around the peak cut at the border: the positions (h, w) with |h - py| <= 2 and
  |w - px| <= 2.  Every position outside it has weight 1, every position inside it weight 0.

  With n the number of weighted positions, S the weighted sum of the plane and mu = S / n the weighted mean,
  the kernel takes the variance as (Q - n * mu * mu) / (n - 1) with Q the weighted sum of squares, summing each
  quantity along a line first and then over the lines, and the maximum of the plane the same way; the reference
  takes the variance as the sum of ((x - mu) * weight)^2 over (n - 1), with every sum and the maximum running
  over the 9216 positions of the flattened plane.  Both then form (max - mu) / variance.

  The rows' ratios are finally divided, batch by batch, by their mean over the 256 channels plus a small
  constant: that last stretch is the same text in both programs and is kept here as one function of the
  column of ratios.
-/
import Idealize.ShloMosaic.PureOps
import Idealize.ShloMosaic.PureOps.Ideal.Laws
import Idealize.ShloMosaic.Lib.ValueIdx

noncomputable section

namespace Cert.Psr

open Idealize.ShloMosaic Idealize.ShloMosaic.ValueIdx

/-- The cost volume's shape, the peak table's, the column of per-row ratios, and the result's. -/
abbrev SCV : Shape := ⟨4, ![32, 256, 96, 96]⟩
abbrev SPK : Shape := ⟨3, ![32, 256, 2]⟩
abbrev SCOL : Shape := ⟨2, ![8192, 1]⟩
abbrev SOUT : Shape := ⟨2, ![32, 256]⟩
abbrev SB : Shape := ⟨1, ![32]⟩
abbrev SB1 : Shape := ⟨2, ![32, 1]⟩
abbrev S0 : Shape := ⟨0, ![]⟩

/-- One plane of the cost volume. -/
abbrev Row := Fin 96 → Fin 96 → EReal

/-- Row r of the 8192 is channel r % 256 of batch r / 256. -/
def rowB (r : Fin 8192) : Fin 32 := ⟨r.val / 256, by have := r.isLt; omega⟩
def rowC (r : Fin 8192) : Fin 256 := ⟨r.val % 256, by omega⟩

/-- The plane of row r. -/
def rowOf (cv : SCV.Idx → EReal) (r : Fin 8192) : Row := fun h w => cv (ix4 (rowB r) (rowC r) h w)
/-- The peak's line and column in row r. -/
def pyOf (pk : SPK.Idx → BitVec 32) (r : Fin 8192) : BitVec 32 := pk (ix3 (rowB r) (rowC r) (0 : Fin 2))
def pxOf (pk : SPK.Idx → BitVec 32) (r : Fin 8192) : BitVec 32 := pk (ix3 (rowB r) (rowC r) (1 : Fin 2))

/-- Coordinate h is within two steps of the peak's coordinate p. -/
def near (p : BitVec 32) (h : Fin 96) : Prop := p.toNat ≤ h.val + 2 ∧ h.val ≤ p.toNat + 2

instance (p : BitVec 32) (h : Fin 96) : Decidable (near p h) := by unfold near; infer_instance

/-- The sidelobe weight: 0 inside the mainlobe window, 1 outside. -/
def wgt (py px : BitVec 32) : Row := fun h w => if near py h ∧ near px w then 0 else 1

/-! ## The kernel's arrangement: along each line, then over the lines -/

def nK (wt : Row) : EReal := ∑ h : Fin 96, ∑ w : Fin 96, wt h w
def sK (x wt : Row) : EReal := ∑ h : Fin 96, ∑ w : Fin 96, x h w * wt h w
def qK (x wt : Row) : EReal := ∑ h : Fin 96, ∑ w : Fin 96, x h w * (x h w * wt h w)
def maxK (x : Row) : EReal :=
  (Finset.univ : Finset (Fin 96)).fold max ⊥ (fun h => (Finset.univ : Finset (Fin 96)).fold max ⊥ (fun w => x h w))
def muK (x wt : Row) : EReal := Ideal.div (sK x wt) (nK wt)
def varK (x wt : Row) : EReal := Ideal.div (qK x wt - nK wt * muK x wt * muK x wt) (nK wt - 1)
def psrK (x wt : Row) : EReal := Ideal.div (maxK x - muK x wt) (varK x wt)

/-! ## The reference's arrangement: over the flattened plane -/

/-- Position k of the flattened plane is line k / 96, column k % 96. -/
def flatH (k : Fin 9216) : Fin 96 := ⟨k.val / 96, by have := k.isLt; omega⟩
def flatW (k : Fin 9216) : Fin 96 := ⟨k.val % 96, by omega⟩

def nR (wt : Row) : EReal := ∑ k : Fin 9216, wt (flatH k) (flatW k)
def sR (x wt : Row) : EReal := ∑ k : Fin 9216, x (flatH k) (flatW k) * wt (flatH k) (flatW k)
def muR (x wt : Row) : EReal := Ideal.div (sR x wt) (nR wt)
def dR (x wt : Row) (k : Fin 9216) : EReal := (x (flatH k) (flatW k) - muR x wt) * wt (flatH k) (flatW k)
def varR (x wt : Row) : EReal := Ideal.div (∑ k : Fin 9216, dR x wt k * dR x wt k) (nR wt - 1)
def maxR (x : Row) : EReal := (Finset.univ : Finset (Fin 9216)).fold max ⊥ (fun k => x (flatH k) (flatW k))
def psrR (x wt : Row) : EReal := Ideal.div (maxR x - muR x wt) (varR x wt)

/-! ## The column of ratios, in either arrangement -/

def colK (cv : SCV.Idx → EReal) (pk : SPK.Idx → BitVec 32) : SCOL.Idx → EReal :=
  fun i => psrK (rowOf cv (i 0)) (wgt (pyOf pk (i 0)) (pxOf pk (i 0)))
def colR (cv : SCV.Idx → EReal) (pk : SPK.Idx → BitVec 32) : SCOL.Idx → EReal :=
  fun i => psrR (rowOf cv (i 0)) (wgt (pyOf pk (i 0)) (pxOf pk (i 0)))

/-! ## The shared last stretch -/

/-- The ratios regrouped as 32 batches of 256 channels, each divided by its batch's mean plus a small constant.
    The shape facts are arguments: each program states its own, and a fact has one proof. -/
def tail (h1 : SCOL.ShapeCasts SOUT) (h2 : SOUT.ReducesTo [1] SB) (h3 : 0 < S0.numel)
    (h4 : SB.BroadcastsInDim SB1 (![0] : Fin 1 → Fin SB1.rank)) (h5 : S0.BroadcastsInDim SB1 (![] : Fin 0 → Fin SB1.rank))
    (h6 : SB1.BroadcastsInDim SOUT (![0, 1] : Fin 2 → Fin SOUT.rank))
    (p : FVec Ideal SCOL .f32) : FVec Ideal SOUT .f32 :=
  let q : FVec Ideal SOUT .f32 := shapeCast SOUT p h1
  Host.divf (F := Ideal) q
    (broadcastInDim SOUT ![0, 1] h6
      (addf (F := Ideal)
        (Host.divf (F := Ideal)
          (broadcastInDim SB1 ![0] h4 (Host.reduceAdd (F := Ideal) q (constant (F := Ideal) S0 .f32 0x00000000#32) h2 h3))
          (broadcastInDim SB1 ![] h5 (constant (F := Ideal) S0 .f32 0x43800000#32)))
        (broadcastInDim SB1 ![] h5 (constant (F := Ideal) S0 .f32 0x322BCC77#32))))

end Cert.Psr

end
-- ==== Proof.Flatten.lean ====
/-
  A sum over the 9216 positions of the flattened plane is the sum along each line and then over the lines, and a
  maximum likewise: position k is line k / 96, column k % 96, and k runs through every (line, column) pair once.
-/
import proofs.«430624_j36567351558144_2_alg».proof.Proof.Spec
import Mathlib.Data.Fintype.BigOperators
import Mathlib.Data.Finset.Lattice.Fold

noncomputable section

namespace Cert.Psr

open Idealize.ShloMosaic Idealize.ShloMosaic.ValueIdx

/-- The pair (line h, column w) sits at position h * 96 + w of the flattened plane; the position's line and
    column give the pair back, so the pairs and the positions correspond one to one. -/
private def flatEquiv : Fin 96 × Fin 96 ≃ Fin 9216 where
  toFun p := ⟨p.1.val * 96 + p.2.val, by have := p.1.isLt; have := p.2.isLt; omega⟩
  invFun k := (flatH k, flatW k)
  left_inv p := by
    obtain ⟨⟨a, ha⟩, ⟨b, hb⟩⟩ := p
    refine Prod.ext (Fin.ext ?_) (Fin.ext ?_)
    · show (a * 96 + b) / 96 = a
      omega
    · show (a * 96 + b) % 96 = b
      omega
  right_inv k := by
    refine Fin.ext ?_
    show k.val / 96 * 96 + k.val % 96 = k.val
    omega

/-- The line of position h * 96 + w is h. -/
private theorem flatH_flatEquiv (h w : Fin 96) : flatH (flatEquiv (h, w)) = h :=
  congrArg Prod.fst (flatEquiv.left_inv (h, w))

/-- The column of position h * 96 + w is w. -/
private theorem flatW_flatEquiv (h w : Fin 96) : flatW (flatEquiv (h, w)) = w :=
  congrArg Prod.snd (flatEquiv.left_inv (h, w))

/-- A sum over the flattened plane, line by line. -/
theorem sum_flat (f : Fin 96 → Fin 96 → EReal) :
    ∑ k : Fin 9216, f (flatH k) (flatW k) = ∑ h : Fin 96, ∑ w : Fin 96, f h w := by
  -- the sum over the pairs is the iterated sum, and the positions run through the pairs once each
  rw [← Fintype.sum_prod_type']
  exact Equiv.sum_comp flatEquiv.symm (fun p : Fin 96 × Fin 96 => f p.1 p.2)

/-- The maximum over the flattened plane is the maximum of the lines' maxima. -/
theorem max_flat (x : Row) : maxR x = maxK x := by
  -- a fold of max from ⊥ is the finite supremum
  show (Finset.univ : Finset (Fin 9216)).sup (fun k => x (flatH k) (flatW k))
      = (Finset.univ : Finset (Fin 96)).sup (fun h => (Finset.univ : Finset (Fin 96)).sup (fun w => x h w))
  apply le_antisymm
  · -- every position's value is below its line's maximum, which is below the maximum of the maxima
    refine Finset.sup_le fun k _ => ?_
    exact (Finset.le_sup (f := fun w => x (flatH k) w) (Finset.mem_univ (flatW k))).trans
      (Finset.le_sup (f := fun h => (Finset.univ : Finset (Fin 96)).sup (fun w => x h w))
        (Finset.mem_univ (flatH k)))
  · -- every (line, column) value is the value at position line * 96 + column
    refine Finset.sup_le fun h _ => Finset.sup_le fun w _ => ?_
    have hk := Finset.le_sup (f := fun k => x (flatH k) (flatW k)) (Finset.mem_univ (flatEquiv (h, w)))
    simpa only [flatH_flatEquiv, flatW_flatEquiv] using hk

end Cert.Psr

end
-- ==== Proof.Algebra.lean ====
/-
  The two arrangements of a row's peak-to-sidelobe ratio agree when the plane's entries are real numbers and the
  peak lies inside the plane.

  The weights are 0 or 1, so weight * weight = weight; the sums and the maximum over the flattened plane are those
  taken line by line; and with mu = S / n and n a positive real,
  sum of ((x - mu) * weight)^2 = Q - 2 * mu * S + mu^2 * n = Q - n * mu * mu.
-/
import proofs.«430624_j36567351558144_2_alg».proof.Proof.Spec
import proofs.«430624_j36567351558144_2_alg».proof.Proof.Flatten
import Mathlib.Data.EReal.Basic
import Mathlib.Data.EReal.Operations
import Mathlib.Algebra.BigOperators.Ring.Finset
import Mathlib.Algebra.Order.BigOperators.Group.Finset
import Mathlib.Tactic.FieldSimp
import Mathlib.Tactic.Ring
import Mathlib.Tactic.Linarith

noncomputable section

namespace Cert.Psr

open Idealize.ShloMosaic Idealize.ShloMosaic.ValueIdx

/-- The embedding of the reals into the extended reals commutes with a finite sum. -/
private theorem coe_sum {ι : Type*} (s : Finset ι) (g : ι → ℝ) :
    ∑ i ∈ s, ((g i : ℝ) : EReal) = ((∑ i ∈ s, g i : ℝ) : EReal) := by
  classical
  refine Finset.induction_on s ?_ ?_
  · simp
  · intro a s ha ih
    rw [Finset.sum_insert ha, Finset.sum_insert ha, ih, EReal.coe_add]

/-- Over the reals: with idempotent weights w, n the sum of the weights, S the weighted sum and n * mu = S,
    the sum of ((x - mu) * w)^2 is Q - 2 * mu * S + mu^2 * n = Q - n * mu * mu, Q the weighted sum of squares. -/
private theorem real_var {ι : Type*} [Fintype ι] (xr wr : ι → ℝ) (hw : ∀ i, wr i * wr i = wr i)
    (n S mu : ℝ) (hn : ∑ i, wr i = n) (hS : ∑ i, xr i * wr i = S) (hmu : n * mu = S) :
    ∑ i, ((xr i - mu) * wr i) * ((xr i - mu) * wr i) = (∑ i, xr i * (xr i * wr i)) - n * mu * mu := by
  have hterm : ∀ i, ((xr i - mu) * wr i) * ((xr i - mu) * wr i)
      = xr i * (xr i * wr i) - 2 * mu * (xr i * wr i) + mu * mu * wr i := by
    intro i
    have h1 : ((xr i - mu) * wr i) * ((xr i - mu) * wr i) = (xr i - mu) * (xr i - mu) * (wr i * wr i) := by ring
    rw [h1, hw i]; ring
  rw [Finset.sum_congr rfl (fun i _ => hterm i), Finset.sum_add_distrib, Finset.sum_sub_distrib,
    ← Finset.mul_sum, ← Finset.mul_sum, hS, hn, ← hmu]
  ring

/-- The same identity for extended reals that are real numbers, the mean read as the quotient S / n with n a nonzero real. -/
private theorem ereal_var {ι : Type*} [Fintype ι] (X W : ι → EReal) (xr wr : ι → ℝ)
    (hX : ∀ i, X i = (xr i : EReal)) (hW : ∀ i, W i = (wr i : EReal)) (hw : ∀ i, wr i * wr i = wr i)
    (hn0 : (∑ i, wr i) ≠ 0) :
    ∑ i, ((X i - Ideal.div (∑ j, X j * W j) (∑ j, W j)) * W i) * ((X i - Ideal.div (∑ j, X j * W j) (∑ j, W j)) * W i)
      = (∑ i, X i * (X i * W i))
        - (∑ j, W j) * Ideal.div (∑ j, X j * W j) (∑ j, W j) * Ideal.div (∑ j, X j * W j) (∑ j, W j) := by
  have hn : ∑ i, W i = ((∑ i, wr i : ℝ) : EReal) := by
    rw [← coe_sum]; exact Finset.sum_congr rfl (fun i _ => hW i)
  have hS : ∑ i, X i * W i = ((∑ i, xr i * wr i : ℝ) : EReal) := by
    rw [← coe_sum]; refine Finset.sum_congr rfl (fun i _ => ?_); rw [hX, hW, EReal.coe_mul]
  have hQ : ∑ i, X i * (X i * W i) = ((∑ i, xr i * (xr i * wr i) : ℝ) : EReal) := by
    rw [← coe_sum]; refine Finset.sum_congr rfl (fun i _ => ?_); rw [hX, hW, EReal.coe_mul, EReal.coe_mul]
  have hmu : Ideal.div (∑ i, X i * W i) (∑ i, W i)
      = (((∑ i, xr i * wr i) / (∑ i, wr i) : ℝ) : EReal) := by
    rw [hS, hn, Ideal.div_coe hn0, ← EReal.coe_mul, mul_one_div]
  rw [hmu, hQ, hn]
  have hD : ∑ i, ((X i - (((∑ i, xr i * wr i) / (∑ i, wr i) : ℝ) : EReal)) * W i)
        * ((X i - (((∑ i, xr i * wr i) / (∑ i, wr i) : ℝ) : EReal)) * W i)
      = ((∑ i, ((xr i - (∑ i, xr i * wr i) / (∑ i, wr i)) * wr i)
        * ((xr i - (∑ i, xr i * wr i) / (∑ i, wr i)) * wr i) : ℝ) : EReal) := by
    rw [← coe_sum]; refine Finset.sum_congr rfl (fun i _ => ?_)
    rw [hX, hW, ← EReal.coe_sub, ← EReal.coe_mul, ← EReal.coe_mul]
  have hnmu : (∑ i, wr i) * ((∑ i, xr i * wr i) / (∑ i, wr i)) = ∑ i, xr i * wr i := by
    field_simp
  rw [hD, real_var xr wr hw _ _ _ rfl rfl hnmu, EReal.coe_sub, EReal.coe_mul, EReal.coe_mul]

/-- One row: the kernel's arrangement and the reference's give the same ratio. -/
theorem psrK_eq_psrR (x : Row) (py px : BitVec 32) (hx : ∀ h w, ∃ r : ℝ, x h w = (r : EReal))
    (hpy : py.toNat < 96) (hpx : px.toNat < 96) :
    psrK x (wgt py px) = psrR x (wgt py px) := by
  choose xr hxr using hx
  -- the weights as real numbers
  let wr : Fin 96 → Fin 96 → ℝ := fun h w => if near py h ∧ near px w then 0 else 1
  have hwr : ∀ h w, wgt py px h w = (wr h w : EReal) := by
    intro h w; simp only [wgt, wr]; split_ifs <;> simp
  have hww : ∀ h w, wr h w * wr h w = wr h w := by
    intro h w; simp only [wr]; split_ifs <;> simp
  -- the number of weighted positions is at least 1: a line three or more steps from the peak's lies in the plane
  have hn0 : (∑ k : Fin 9216, wr (flatH k) (flatW k)) ≠ 0 := by
    have hnn : ∀ k ∈ (Finset.univ : Finset (Fin 9216)), 0 ≤ wr (flatH k) (flatW k) := by
      intro k _; simp only [wr]; split_ifs <;> norm_num
    obtain ⟨k0, hk0⟩ : ∃ k0 : Fin 9216, wr (flatH k0) (flatW k0) = 1 := by
      by_cases h3 : 3 ≤ py.toNat
      · refine ⟨⟨0, by norm_num⟩, ?_⟩
        simp only [wr]; rw [if_neg]
        rintro ⟨⟨h1, _⟩, _⟩
        simp only [flatH] at h1; omega
      · refine ⟨⟨9120, by norm_num⟩, ?_⟩
        simp only [wr]; rw [if_neg]
        rintro ⟨⟨_, h2⟩, _⟩
        simp only [flatH] at h2; omega
    have h1 := Finset.single_le_sum hnn (Finset.mem_univ k0)
    rw [hk0] at h1
    intro h0; rw [h0] at h1; norm_num at h1
  have key := ereal_var (fun k : Fin 9216 => x (flatH k) (flatW k)) (fun k => wgt py px (flatH k) (flatW k))
    (fun k => xr (flatH k) (flatW k)) (fun k => wr (flatH k) (flatW k))
    (fun k => hxr _ _) (fun k => hwr _ _) (fun k => hww _ _) hn0
  have hn : nR (wgt py px) = nK (wgt py px) := sum_flat (fun h w => wgt py px h w)
  have hs : sR x (wgt py px) = sK x (wgt py px) := sum_flat (fun h w => x h w * wgt py px h w)
  have hq : ∑ k : Fin 9216, x (flatH k) (flatW k) * (x (flatH k) (flatW k) * wgt py px (flatH k) (flatW k))
      = qK x (wgt py px) := sum_flat (fun h w => x h w * (x h w * wgt py px h w))
  have hmu : muR x (wgt py px) = muK x (wgt py px) := by unfold muR muK; rw [hs, hn]
  have hvar : ∑ k : Fin 9216, dR x (wgt py px) k * dR x (wgt py px) k
      = qK x (wgt py px) - nK (wgt py px) * muK x (wgt py px) * muK x (wgt py px) := by
    rw [← hq, ← hn, ← hmu]; exact key
  unfold psrK psrR varK varR
  rw [max_flat, hmu, hn, hvar]

/-- All rows: the two columns of ratios are one column. -/
theorem colK_eq_colR (cv : SCV.Idx → EReal) (pk : SPK.Idx → BitVec 32) (hcv : ∀ i, ∃ r : ℝ, cv i = (r : EReal))
    (hpk : ∀ j, (pk j).toNat < 96) : colK cv pk = colR cv pk := by
  funext i
  exact psrK_eq_psrR _ _ _ (fun h w => hcv _) (hpk _) (hpk _)

end Cert.Psr

end
-- ==== Proof.PreDecode.lean ====
/-
  What the precondition says of the two inputs: every entry of the cost volume is a real number (its absolute
  value is below +infinity), and every peak coordinate is one of 0 .. 95.
-/
import proofs.«430624_j36567351558144_2_alg».proof.Proof.Spec
import proofs.«430624_j36567351558144_2_alg».proof.Pre_finite_inputs
import Idealize.ShloMosaic.Lib.ReduceAll
import Idealize.ShloMosaic.Lib.StableHlo.Predicate

noncomputable section

namespace Cert.PreDecode

open Idealize.ShloMosaic Idealize.ShloMosaic.ValueIdx Cert.Psr

/-- The result of a reduction over all axes has one index. -/
private instance : Subsingleton Cert.Pre_finite_inputs.S_.Idx := ⟨fun a b => funext fun d => d.elim0⟩

private theorem ofBool_eq_one {b : Bool} : BitVec.ofBool b = 1#1 ↔ b = true := by cases b <;> decide

/-- The pattern 0x7F800000 denotes +infinity. -/
private theorem inf_bits : Ideal.ofBits .f32 0x7F800000#32 = (⊤ : EReal) := by simp [Ideal.ofBits, Ideal.ieee]

/-- An extended real whose absolute value max x (-x) is strictly below +infinity is a real number: at -infinity
    and at +infinity the maximum is +infinity. -/
private theorem real_of_abs_lt_top (x : EReal) (h : Ideal.cmp .olt (max x (-x)) (⊤ : EReal) = 1#1) :
    ∃ r : ℝ, x = (r : EReal) := by
  unfold Ideal.cmp at h
  rw [ofBool_eq_one] at h
  simp only [decide_eq_true_eq] at h
  induction x using EReal.rec with
  | bot => simp at h
  | coe r => exact ⟨r, rfl⟩
  | top => simp at h

/-- A 32-bit word that is at least 0 and below 96, both read signed, is below 96 read unsigned. -/
private theorem toNat_lt_of_cmp (w : BitVec 32) (h0 : IntOp.cmpi .sge w 0#32 = 1#1)
    (h1 : IntOp.cmpi .slt w 96#32 = 1#1) : w.toNat < 96 := by
  rw [IntOp.cmpi_sge] at h0
  rw [IntOp.cmpi_slt] at h1
  have e0 : (0#32 : BitVec 32).toInt = 0 := by decide
  have e1 : (96#32 : BitVec 32).toInt = 96 := by decide
  rw [e0] at h0
  rw [e1] at h1
  have hc := BitVec.toInt_eq_toNat_cond w
  split at hc <;> omega

theorem of_pre [Cert.Pre_finite_inputs.Facts] (x0 : FVec Ideal Cert.Pre_finite_inputs.S32x256x96x96 .f32)
    (x1 : IVec Cert.Pre_finite_inputs.S32x256x2 32)
    (h : Cert.Pre_finite_inputs.fn (F := Ideal) x0 x1 = fun _ => 1#1) :
    (∀ i, ∃ r : ℝ, x0 i = (r : EReal)) ∧ (∀ j, (x1 j).toNat < 96) := by
  -- the predicate's one word is the conjunction of the two reductions
  have e := congrFun h ValueIdx.ix0
  dsimp only [Cert.Pre_finite_inputs.fn] at e
  obtain ⟨e1, e2⟩ := IntOp.andi_eq_one.1 e
  refine ⟨fun i => ?_, fun j => ?_⟩
  · -- every entry's comparison |x| < +infinity is 1
    have hi := Host.reduce_andi_all _ _ _ _ _ e1 i
    have hi' : Ideal.cmp .olt (max (x0 i) (-(x0 i))) (Ideal.ofBits .f32 0x7F800000#32) = 1#1 := hi
    rw [inf_bits] at hi'
    exact real_of_abs_lt_top _ hi'
  · -- every coordinate's two comparisons are 1
    have hj := Host.reduce_andi_all _ _ _ _ _ e2 j
    have hj' : IntOp.andi (IntOp.cmpi .sge (x1 j) 0#32) (IntOp.cmpi .slt (x1 j) 96#32) = 1#1 := hj
    obtain ⟨h0, h1⟩ := IntOp.andi_eq_one.1 hj'
    exact toNat_lt_of_cmp _ h0 h1

end Cert.PreDecode

end
-- ==== Proof.KernelMask.lean ====
/-
  The kernel's mainlobe indicator read at one position of the block.

  From a row's two peak coordinates the body builds, per axis, the 0/1 indicator of max(p - 2, 0) <= coordinate <=
  min(p + 2, 95) and multiplies the two.  For a peak coordinate p in 0 .. 95 that interval is |coordinate - p| <= 2,
  so the product is 1 inside the window and 0 outside.
-/
import proofs.«430624_j36567351558144_2_alg».proof.Proof.Spec
import proofs.«430624_j36567351558144_2_alg».proof.Proof.Gen.KernelIdeal.Skeleton
import Idealize.ShloMosaic.Lib.Pipeline.Value

noncomputable section

namespace Cert.KernelIdeal.Mask

open Idealize.ShloMosaic Idealize.ShloMosaic.ValueIdx Cert.KernelIdeal Cert.KernelIdeal.Gen Cert.Psr

/-! ## One coordinate against one peak coordinate, as words -/

/-- The one-bit word of max(p - 2, 0) <= c <= min(p + 2, 95), both comparisons signed, for p and c in 0 .. 95: it is
    set exactly when c is within two steps of p.  Checked over the 96 x 96 pairs. -/
private theorem bit_core : ∀ p c : Fin 96,
    IntOp.andi (IntOp.cmpi .sge (BitVec.ofNat 32 c.val) (IntOp.maxsi (IntOp.subi (BitVec.ofNat 32 p.val) 2#32) 0#32))
        (IntOp.cmpi .sle (BitVec.ofNat 32 c.val) (IntOp.minsi (IntOp.addi (BitVec.ofNat 32 p.val) 2#32) 95#32))
      = if p.val ≤ c.val + 2 ∧ c.val ≤ p.val + 2 then 1#1 else 0#1 := by
  decide +kernel

/-- The same for a 32-bit word p below 96, converted to an extended real: 1 when c is near p, else 0. -/
private theorem scalar_ind (p : BitVec 32) (hp : p.toNat < 96) (c : Fin 96) :
    FloatOps.sitofp (F := Ideal) .f32
        ((IntOp.andi (IntOp.cmpi .sge (BitVec.ofNat 32 c.val) (IntOp.maxsi (IntOp.subi p 2#32) 0#32))
          (IntOp.cmpi .sle (BitVec.ofNat 32 c.val) (IntOp.minsi (IntOp.addi p 2#32) 95#32))).setWidth 32)
      = if near p c then (1 : EReal) else 0 := by
  have hpe : p = BitVec.ofNat 32 (⟨p.toNat, hp⟩ : Fin 96).val := (BitVec.ofNat_toNat 32 p).symm ▸ rfl
  have hc := bit_core ⟨p.toNat, hp⟩ c
  rw [← hpe] at hc
  rw [hc]
  show ((( (if p.toNat ≤ c.val + 2 ∧ c.val ≤ p.toNat + 2 then 1#1 else 0#1 : BitVec 1).setWidth 32).toInt : ℝ) : EReal) = _
  by_cases hn : near p c
  · rw [if_pos hn, if_pos (show p.toNat ≤ c.val + 2 ∧ c.val ≤ p.toNat + 2 from hn)]
    have h1 : ((1#1 : BitVec 1).setWidth 32).toInt = 1 := by decide
    rw [h1]; simp
  · rw [if_neg hn, if_neg (show ¬(p.toNat ≤ c.val + 2 ∧ c.val ≤ p.toNat + 2) from hn)]
    have h0 : ((0#1 : BitVec 1).setWidth 32).toInt = 0 := by decide
    rw [h0]; simp

/-! ## Layout steps at explicit coordinates -/

/-- The [128,1] column viewed as a [128] vector reads the column's entry. -/
private theorem col_at {α : Type} (v : S128x1.Idx → α) (r : Fin 128) :
    shapeCast S128 v shapeCasts_S128x1_S128 (ix1 r) = v (ix2 r (0 : Fin 1)) :=
  shapeCast_apply v shapeCasts_S128x1_S128 (ix1 r) (ix2 r (0 : Fin 1))
    (by rw [Shape.rowMajor_val_two, Shape.rowMajor_val_one]; show r.val * 1 + 0 = r.val; omega)

/-- A [128] vector viewed as a column and repeated along 96 columns reads its row's entry. -/
private theorem bcol_at {α : Type} (x : S128.Idx → α) (r : Fin 128) (c : Fin 96) :
    broadcastTo S128x96 (shapeCast S128x1 x shapeCasts_S128_S128x1) broadcasts_S128x1_S128x96 (ix2 r c) = x (ix1 r) := by
  refine (broadcastTo_apply _ broadcasts_S128x1_S128x96 (ix2 r c) (ix2 r (0 : Fin 1))
    (fun a => match a with | ⟨0, _⟩ => rfl | ⟨1, _⟩ => rfl)).trans ?_
  exact shapeCast_apply x shapeCasts_S128_S128x1 (ix2 r (0 : Fin 1)) (ix1 r)
    (by rw [Shape.rowMajor_val_two, Shape.rowMajor_val_one]; show r.val = r.val * 1 + 0; omega)

/-- The iota along the second axis of [128,96] reads the column number. -/
private theorem iota_at (r : Fin 128) (c : Fin 96) :
    iota .tc S128x96 32 [1] iota_S128x96_d1_w32 (ix2 r c) = BitVec.ofNat 32 c.val :=
  iota_single_apply .tc S128x96 32 1 iota_S128x96_d1_w32 (ix2 r c)

/-- A [128,96] plane with a unit axis appended and repeated along it: position (r, h, w) reads (r, h). -/
private theorem lines_at {α : Type} (y : S128x96.Idx → α) (r : Fin 128) (h w : Fin 96) :
    broadcastTo S128x96x96 (shapeCast S128x96x1 y shapeCasts_S128x96_S128x96x1) broadcasts_S128x96x1_S128x96x96 (ix3 r h w)
      = y (ix2 r h) := by
  refine (broadcastTo_apply _ broadcasts_S128x96x1_S128x96x96 (ix3 r h w) (ix3 r h (0 : Fin 1))
    (fun a => match a with | ⟨0, _⟩ => rfl | ⟨1, _⟩ => rfl | ⟨2, _⟩ => rfl)).trans ?_
  exact shapeCast_apply y shapeCasts_S128x96_S128x96x1 (ix3 r h (0 : Fin 1)) (ix2 r h)
    (by rw [Shape.rowMajor_val_three, Shape.rowMajor_val_two]; show r.val * 96 + h.val = (r.val * 96 + h.val) * 1 + 0; omega)

/-- A [128,96] plane with a unit axis put in the middle and repeated along it: position (r, h, w) reads (r, w). -/
private theorem cols_at {α : Type} (x : S128x96.Idx → α) (r : Fin 128) (h w : Fin 96) :
    broadcastTo S128x96x96 (shapeCast S128x1x96 x shapeCasts_S128x96_S128x1x96) broadcasts_S128x1x96_S128x96x96 (ix3 r h w)
      = x (ix2 r w) := by
  refine (broadcastTo_apply _ broadcasts_S128x1x96_S128x96x96 (ix3 r h w) (ix3 r (0 : Fin 1) w)
    (fun a => match a with | ⟨0, _⟩ => rfl | ⟨1, _⟩ => rfl | ⟨2, _⟩ => rfl)).trans ?_
  exact shapeCast_apply x shapeCasts_S128x96_S128x1x96 (ix3 r (0 : Fin 1) w) (ix2 r w)
    (by rw [Shape.rowMajor_val_three, Shape.rowMajor_val_two]; show r.val * 96 + w.val = (r.val * 1 + 0) * 96 + w.val; omega)

/-! ## One axis's indicator plane -/

/-- The [128,96] plane the body builds from one column p of peak coordinates: at (r, c) the 0/1 value of
    max(p r - 2, 0) <= c <= min(p r + 2, 95). -/
private def axisInd (v : Vec Ideal S128x1 .i32) : FVec Ideal S128x96 .f32 :=
  let p : IVec S128 32 := shapeCast S128 v shapeCasts_S128x1_S128
  let lo : IVec S128 32 := maxsi (subi p (broadcast S128 2#32)) (broadcast S128 0#32)
  let hi : IVec S128 32 := minsi (addi p (broadcast S128 2#32)) (broadcast S128 95#32)
  let io : IVec S128x96 32 := iota .tc S128x96 32 [1] iota_S128x96_d1_w32
  sitofp .f32 (extui 32
    (andi (cmpi .sge io (broadcastTo S128x96 (shapeCast S128x1 lo shapeCasts_S128_S128x1) broadcasts_S128x1_S128x96))
      (cmpi .sle io (broadcastTo S128x96 (shapeCast S128x1 hi shapeCasts_S128_S128x1) broadcasts_S128x1_S128x96)))
    natLt_1_32)

/-- The payload is the product of the two axes' planes, the first repeated along the columns and the second along the lines. -/
private theorem pay2_eq (v0 v2 : Vec Ideal S128x1 .i32) :
    k0_pay2 (F := Ideal) v0 v2
      = mulf (F := Ideal)
          (broadcastTo S128x96x96 (shapeCast S128x96x1 (axisInd v0) shapeCasts_S128x96_S128x96x1) broadcasts_S128x96x1_S128x96x96)
          (broadcastTo S128x96x96 (shapeCast S128x1x96 (axisInd v2) shapeCasts_S128x96_S128x1x96) broadcasts_S128x1x96_S128x96x96) :=
  rfl

/-- One axis's plane at (r, c): 1 when c is near the row's peak coordinate, else 0. -/
private theorem axisInd_at (v : Vec Ideal S128x1 .i32) (r : Fin 128) (c : Fin 96)
    (hp : (v (ix2 r (0 : Fin 1)) : BitVec 32).toNat < 96) :
    axisInd v (ix2 r c) = if near (v (ix2 r (0 : Fin 1))) c then (1 : EReal) else 0 := by
  refine Eq.trans ?_ (scalar_ind (v (ix2 r (0 : Fin 1))) hp c)
  show FloatOps.sitofp (F := Ideal) .f32
      ((IntOp.andi
        (IntOp.cmpi .sge (iota .tc S128x96 32 [1] iota_S128x96_d1_w32 (ix2 r c))
          (broadcastTo S128x96 (shapeCast S128x1 (maxsi (subi (shapeCast S128 v shapeCasts_S128x1_S128) (broadcast S128 2#32)) (broadcast S128 0#32)) shapeCasts_S128_S128x1) broadcasts_S128x1_S128x96 (ix2 r c)))
        (IntOp.cmpi .sle (iota .tc S128x96 32 [1] iota_S128x96_d1_w32 (ix2 r c))
          (broadcastTo S128x96 (shapeCast S128x1 (minsi (addi (shapeCast S128 v shapeCasts_S128x1_S128) (broadcast S128 2#32)) (broadcast S128 95#32)) shapeCasts_S128_S128x1) broadcasts_S128x1_S128x96 (ix2 r c)))).setWidth 32) = _
  rw [iota_at, bcol_at, bcol_at]
  show FloatOps.sitofp (F := Ideal) .f32
      ((IntOp.andi
        (IntOp.cmpi .sge (BitVec.ofNat 32 c.val)
          (IntOp.maxsi (IntOp.subi (shapeCast S128 v shapeCasts_S128x1_S128 (ix1 r)) 2#32) 0#32))
        (IntOp.cmpi .sle (BitVec.ofNat 32 c.val)
          (IntOp.minsi (IntOp.addi (shapeCast S128 v shapeCasts_S128x1_S128 (ix1 r)) 2#32) 95#32))).setWidth 32) = _
  rw [col_at]

/-- The indicator at row r, line h, column w of the block. -/
theorem mask_at (v0 v2 : Vec Ideal S128x1 .i32) (r : Fin 128) (h w : Fin 96)
    (hy : (v0 (ix2 r (0 : Fin 1)) : BitVec 32).toNat < 96) (hx : (v2 (ix2 r (0 : Fin 1)) : BitVec 32).toNat < 96) :
    k0_pay2 (F := Ideal) v0 v2 (ix3 r h w)
      = if near (v0 (ix2 r (0 : Fin 1))) h ∧ near (v2 (ix2 r (0 : Fin 1))) w then (1 : EReal) else 0 := by
  rw [pay2_eq, mulf_apply, lines_at, cols_at, axisInd_at v0 r h hy, axisInd_at v2 r w hx]
  by_cases h1 : near (v0 (ix2 r (0 : Fin 1))) h
  · by_cases h2 : near (v2 (ix2 r (0 : Fin 1))) w
    · rw [if_pos h1, if_pos h2, if_pos ⟨h1, h2⟩, one_mul]
    · rw [if_pos h1, if_neg h2, if_neg (fun hh => h2 hh.2), mul_zero]
  · rw [if_neg h1, zero_mul, if_neg (fun hh => h1 hh.1)]

end Cert.KernelIdeal.Mask

end
-- ==== Proof.KernelPay.lean ====
/-
  What the kernel's body leaves in its output block, read at one row of the block: the row's peak-to-sidelobe
  ratio in the kernel's arrangement, of that row's plane and of the weights its two peak coordinates give.
-/
import proofs.«430624_j36567351558144_2_alg».proof.Proof.Spec
import proofs.«430624_j36567351558144_2_alg».proof.Proof.KernelMask
import proofs.«430624_j36567351558144_2_alg».proof.Proof.Gen.KernelIdeal.Frame
import Idealize.ShloMosaic.Lib.Pipeline.Value

noncomputable section

namespace Cert.KernelIdeal.Pay

open Idealize.ShloMosaic Idealize.ShloMosaic.ValueIdx Cert.KernelIdeal Cert.KernelIdeal.Gen Cert.Psr

/-! ## The two constants -/

/-- The word of 1.0 is the real 1. -/
private theorem one_eq : (FloatOps.ofBits (F := Ideal) .f32 0x3F800000#32 : EReal) = 1 := by
  show Ideal.ofBits .f32 0x3F800000#32 = 1
  simp [Ideal.ofBits, Ideal.ieee, -EReal.coe_mul]; norm_num

/-- The word of minus infinity is the bottom element. -/
private theorem bot_eq : (FloatOps.ofBits (F := Ideal) .f32 0xFF800000#32 : EReal) = ⊥ := by
  show Ideal.ofBits .f32 0xFF800000#32 = ⊥
  simp [Ideal.ofBits, Ideal.ieee]

/-! ## The layout steps at explicit coordinates -/

/-- A line's sums as a column with a trailing unit axis: entry (r, h, 0) is entry (r, h). -/
private theorem cast_trail {α : Type} (u : S128x96.Idx → α) (hc : S128x96.ShapeCasts S128x96x1) (r : Fin 128) (h : Fin 96) :
    shapeCast S128x96x1 u hc (ix3 r h (0 : Fin 1)) = u (ix2 r h) := by
  refine shapeCast_apply u hc _ _ ?_
  rw [Shape.rowMajor_val_two, Shape.rowMajor_val_three]
  show r.val * 96 + h.val = (r.val * 96 + h.val) * 1 + 0
  omega

/-- A column of 128 with one unit axis, given a second: entry (r, 0, 0) is entry (r, 0). -/
private theorem cast_up {α : Type} (u : S128x1.Idx → α) (hc : S128x1.ShapeCasts S128x1x1) (r : Fin 128) :
    shapeCast S128x1x1 u hc (ix3 r (0 : Fin 1) (0 : Fin 1)) = u (ix2 r (0 : Fin 1)) := by
  refine shapeCast_apply u hc _ _ ?_
  rw [Shape.rowMajor_val_two, Shape.rowMajor_val_three]
  show r.val * 1 + 0 = (r.val * 1 + 0) * 1 + 0
  omega

/-- ... and back: entry (r, 0) is entry (r, 0, 0). -/
private theorem cast_down {α : Type} (u : S128x1x1.Idx → α) (hc : S128x1x1.ShapeCasts S128x1) (r : Fin 128) :
    shapeCast S128x1 u hc (ix2 r (0 : Fin 1)) = u (ix3 r (0 : Fin 1) (0 : Fin 1)) := by
  refine shapeCast_apply u hc _ _ ?_
  rw [Shape.rowMajor_val_two, Shape.rowMajor_val_three]
  show (r.val * 1 + 0) * 1 + 0 = r.val * 1 + 0
  omega

/-! ## The two-stage reductions -/

/-- The sum along line h of row r. -/
private theorem line_sum (v : FVec Ideal S128x96x96 .f32) (h2 : S128x96x96.Reduces [2] S128x96) (hφ : FKind.Formats .f32)
    (hacc : (0x00000000#32 : BitVec 32) = FKind.add.neutral .f32 hφ) (r : Fin 128) (h : Fin 96) :
    multiReduction (F := Ideal) .add [2] S128x96 v 0x00000000#32 h2 hφ hacc (ix2 r h) = ∑ w : Fin 96, v (ix3 r h w) := by
  refine (Ideal.multiReduction_add_single v 0x00000000#32 h2 hφ hacc (ix2 r h)).trans ?_
  refine Finset.sum_congr rfl fun w _ => congrArg v ?_
  funext a
  match a with
  | ⟨0, _⟩ => exact Fin.ext rfl
  | ⟨1, _⟩ => exact Fin.ext rfl
  | ⟨2, _⟩ => exact Fin.ext rfl

/-- The sum over the lines of a column of line values. -/
private theorem col_sum (u : FVec Ideal S128x96x1 .f32) (h1 : S128x96x1.Reduces [1] S128x1) (hφ : FKind.Formats .f32)
    (hacc : (0x00000000#32 : BitVec 32) = FKind.add.neutral .f32 hφ) (r : Fin 128) :
    multiReduction (F := Ideal) .add [1] S128x1 u 0x00000000#32 h1 hφ hacc (ix2 r (0 : Fin 1)) = ∑ h : Fin 96, u (ix3 r h (0 : Fin 1)) := by
  refine (Ideal.multiReduction_add_single u 0x00000000#32 h1 hφ hacc (ix2 r (0 : Fin 1))).trans ?_
  refine Finset.sum_congr rfl fun h _ => congrArg u ?_
  funext a
  match a with
  | ⟨0, _⟩ => exact Fin.ext rfl
  | ⟨1, _⟩ => exact Fin.ext rfl
  | ⟨2, _⟩ => exact Fin.ext rfl

/-- Both stages: the [128,1,1] block of totals at (r, 0, 0) is the double sum over row r, lines outermost. -/
private theorem sum_two (v : FVec Ideal S128x96x96 .f32) (h2 : S128x96x96.Reduces [2] S128x96) (h1 : S128x96x1.Reduces [1] S128x1)
    (hφ hφ' : FKind.Formats .f32) (hacc : (0x00000000#32 : BitVec 32) = FKind.add.neutral .f32 hφ)
    (hacc' : (0x00000000#32 : BitVec 32) = FKind.add.neutral .f32 hφ')
    (hc : S128x96.ShapeCasts S128x96x1) (hc' : S128x1.ShapeCasts S128x1x1) (r : Fin 128) :
    shapeCast S128x1x1
        (multiReduction (F := Ideal) .add [1] S128x1
          (shapeCast S128x96x1 (multiReduction (F := Ideal) .add [2] S128x96 v 0x00000000#32 h2 hφ hacc) hc)
          0x00000000#32 h1 hφ' hacc') hc' (ix3 r (0 : Fin 1) (0 : Fin 1))
      = ∑ h : Fin 96, ∑ w : Fin 96, v (ix3 r h w) := by
  refine (cast_up _ hc' r).trans ?_
  refine (col_sum _ h1 hφ' hacc' r).trans ?_
  refine Finset.sum_congr rfl fun h _ => ?_
  refine (cast_trail _ hc r h).trans ?_
  exact line_sum v h2 hφ hacc r h

/-- The maximum along line h of row r, from the bottom element. -/
private theorem line_max (v : FVec Ideal S128x96x96 .f32) (h2 : S128x96x96.Reduces [2] S128x96) (hφ : FKind.Formats .f32)
    (hacc : (0xFF800000#32 : BitVec 32) = FKind.maximumf.neutral .f32 hφ) (r : Fin 128) (h : Fin 96) :
    multiReduction (F := Ideal) .maximumf [2] S128x96 v 0xFF800000#32 h2 hφ hacc (ix2 r h)
      = (Finset.univ : Finset (Fin 96)).fold max ⊥ (fun w => v (ix3 r h w)) := by
  refine (Ideal.multiReduction_maximumf_single v 0xFF800000#32 h2 hφ hacc (ix2 r h)).trans ?_
  rw [bot_eq]
  refine Finset.fold_congr fun w _ => congrArg v ?_
  funext a
  match a with
  | ⟨0, _⟩ => exact Fin.ext rfl
  | ⟨1, _⟩ => exact Fin.ext rfl
  | ⟨2, _⟩ => exact Fin.ext rfl

/-- The maximum over the lines of a column of line values. -/
private theorem col_max (u : FVec Ideal S128x96x1 .f32) (h1 : S128x96x1.Reduces [1] S128x1) (hφ : FKind.Formats .f32)
    (hacc : (0xFF800000#32 : BitVec 32) = FKind.maximumf.neutral .f32 hφ) (r : Fin 128) :
    multiReduction (F := Ideal) .maximumf [1] S128x1 u 0xFF800000#32 h1 hφ hacc (ix2 r (0 : Fin 1))
      = (Finset.univ : Finset (Fin 96)).fold max ⊥ (fun h => u (ix3 r h (0 : Fin 1))) := by
  refine (Ideal.multiReduction_maximumf_single u 0xFF800000#32 h1 hφ hacc (ix2 r (0 : Fin 1))).trans ?_
  rw [bot_eq]
  refine Finset.fold_congr fun h _ => congrArg u ?_
  funext a
  match a with
  | ⟨0, _⟩ => exact Fin.ext rfl
  | ⟨1, _⟩ => exact Fin.ext rfl
  | ⟨2, _⟩ => exact Fin.ext rfl

/-- Both stages: the [128,1,1] block of maxima at (r, 0, 0) is the maximum over the lines of each line's maximum. -/
private theorem max_two (v : FVec Ideal S128x96x96 .f32) (h2 : S128x96x96.Reduces [2] S128x96) (h1 : S128x96x1.Reduces [1] S128x1)
    (hφ hφ' : FKind.Formats .f32) (hacc : (0xFF800000#32 : BitVec 32) = FKind.maximumf.neutral .f32 hφ)
    (hacc' : (0xFF800000#32 : BitVec 32) = FKind.maximumf.neutral .f32 hφ')
    (hc : S128x96.ShapeCasts S128x96x1) (hc' : S128x1.ShapeCasts S128x1x1) (r : Fin 128) :
    shapeCast S128x1x1
        (multiReduction (F := Ideal) .maximumf [1] S128x1
          (shapeCast S128x96x1 (multiReduction (F := Ideal) .maximumf [2] S128x96 v 0xFF800000#32 h2 hφ hacc) hc)
          0xFF800000#32 h1 hφ' hacc') hc' (ix3 r (0 : Fin 1) (0 : Fin 1))
      = maxK (fun h w => v (ix3 r h w)) := by
  refine (cast_up _ hc' r).trans ?_
  refine (col_max _ h1 hφ' hacc' r).trans ?_
  unfold maxK
  refine Finset.fold_congr fun h _ => ?_
  refine (cast_trail _ hc r h).trans ?_
  exact line_max v h2 hφ hacc r h

/-- The body's arithmetic at row r: the ratio in the kernel's arrangement, the weights being the all-ones block
    less the indicator block. -/
theorem pay_at (v44 v45 : FVec Ideal S128x96x96 .f32) (v47 : Vec Ideal S128x96x96 .f32) (r : Fin 128) :
    k0_pay1 (F := Ideal) v44 v45 v47 (ix2 r (0 : Fin 1))
      = psrK (fun h w => v47 (ix3 r h w)) (fun h w => v45 (ix3 r h w) - v44 (ix3 r h w)) := by
  unfold k0_pay1
  refine (cast_down _ _ r).trans ?_
  rw [shapeCast_self]
  simp only [divf_apply, subf_apply, mulf_apply, broadcast_apply]
  unfold psrK varK muK
  -- the four block totals, each a two-stage reduction read at (r, 0, 0)
  refine congrArg₂ Ideal.div
    (congrArg₂ (· - ·) (max_two v47 _ _ _ _ _ _ _ _ r)
      (congrArg₂ Ideal.div (sum_two (mulf v47 (subf v45 v44)) _ _ _ _ _ _ _ _ r) (sum_two (subf v45 v44) _ _ _ _ _ _ _ _ r)))
    (congrArg₂ Ideal.div
      (congrArg₂ (· - ·) (sum_two (mulf v47 (mulf v47 (subf v45 v44))) _ _ _ _ _ _ _ _ r)
        (congrArg₂ (· * ·)
          (congrArg₂ (· * ·) (sum_two (subf v45 v44) _ _ _ _ _ _ _ _ r)
            (congrArg₂ Ideal.div (sum_two (mulf v47 (subf v45 v44)) _ _ _ _ _ _ _ _ r) (sum_two (subf v45 v44) _ _ _ _ _ _ _ _ r)))
          (congrArg₂ Ideal.div (sum_two (mulf v47 (subf v45 v44)) _ _ _ _ _ _ _ _ r) (sum_two (subf v45 v44) _ _ _ _ _ _ _ _ r))))
      (congrArg₂ (· - ·) (sum_two (subf v45 v44) _ _ _ _ _ _ _ _ r) one_eq))

/-! ## The block's row after the body -/

private theorem zero2 : (![0, 0] : Fin 2 → Nat) = fun _ => 0 := funext fun a => by fin_cases a <;> rfl
private theorem zero3 : (![0, 0, 0] : Fin 3 → Nat) = fun _ => 0 := funext fun a => by fin_cases a <;> rfl

/-- The first column of the peak table, loaded as a [128,1] block: entry (r, 0) is the table's (r, 0). -/
private theorem ld_py (x1 : Vec Ideal S128x2 .i32) (r : Fin 128) :
    View.ld x1 r0_0 (ix2 r (0 : Fin 1)) = x1 (ix2 r (0 : Fin 2)) := by
  refine congrArg x1 (funext fun a => Fin.ext ?_)
  match a with
  | ⟨0, _⟩ => show 0 + 1 * r.val = r.val; omega
  | ⟨1, _⟩ => rfl

/-- The second column: entry (r, 0) of the loaded block is the table's (r, 1). -/
private theorem ld_px (x1 : Vec Ideal S128x2 .i32) (r : Fin 128) :
    View.ld x1 r0_1 (ix2 r (0 : Fin 1)) = x1 (ix2 r (1 : Fin 2)) := by
  refine congrArg x1 (funext fun a => Fin.ext ?_)
  match a with
  | ⟨0, _⟩ => show 0 + 1 * r.val = r.val; omega
  | ⟨1, _⟩ => rfl

/-- The all-ones block. -/
private theorem ones_at (i : S128x96x96.Idx) : k0_pay3 (F := Ideal) i = 1 := by
  unfold k0_pay3
  exact one_eq

/-- One less the indicator of the window is the sidelobe weight. -/
private theorem one_sub_ind (c : Prop) [Decidable c] : (1 : EReal) - (if c then (1 : EReal) else 0) = if c then 0 else 1 := by
  by_cases hc : c
  · rw [if_pos hc, if_pos hc, ← EReal.coe_one, ← EReal.coe_sub, sub_self, EReal.coe_zero]
  · rw [if_neg hc, if_neg hc, sub_zero]

/-- Row r of the block after the body. -/
theorem out_at (x0 : Vec Ideal S128x96x96 .f32) (x1 : Vec Ideal S128x2 .i32) (r : Fin 128)
    (hy : (x1 (ix2 r (0 : Fin 2)) : BitVec 32).toNat < 96) (hx : (x1 (ix2 r (1 : Fin 2)) : BitVec 32).toNat < 96) :
    out0_2 (F := Ideal) x0 x1 (ix2 r (0 : Fin 1))
      = psrK (fun h w => x0 (ix3 r h w)) (wgt (x1 (ix2 r (0 : Fin 2))) (x1 (ix2 r (1 : Fin 2)))) := by
  unfold out0_2
  rw [View.canon_unit_zero zero2]
  simp only [View.ld_unit_zero (S := S128x96x96) zero3]
  refine (pay_at _ _ x0 r).trans ?_
  refine congrArg (psrK fun h w => x0 (ix3 r h w)) (funext fun h => funext fun w => ?_)
  have hy' : ((View.ld x1 r0_0) (ix2 r (0 : Fin 1)) : BitVec 32).toNat < 96 := by rw [ld_py]; exact hy
  have hx' : ((View.ld x1 r0_1) (ix2 r (0 : Fin 1)) : BitVec 32).toNat < 96 := by rw [ld_px]; exact hx
  rw [Mask.mask_at (View.ld x1 r0_0) (View.ld x1 r0_1) r h w hy' hx', ones_at, ld_py, ld_px]
  exact one_sub_ind _

end Cert.KernelIdeal.Pay

end
-- ==== Proof.KernelValue.lean ====
/-
  The idealized kernel's program read as values.

  Before the call the program regroups the cost volume as 8192 planes and the peak table as 8192 pairs.  Point t of
  the 64 grid points reads planes 128 t .. 128 t + 127 with their pairs and writes rows 128 t .. 128 t + 127 of the
  column of ratios; row r of what it writes is the ratio of plane 128 t + r.  The 64 blocks cover the column, so after
  the call the column holds every row's ratio, and the lines after the call apply the shared last stretch to it.
-/
import proofs.«430624_j36567351558144_2_alg».proof.Proof.Spec
import proofs.«430624_j36567351558144_2_alg».proof.Proof.KernelPay
import proofs.«430624_j36567351558144_2_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

namespace Cert.KernelIdeal.Val

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.Psr

variable (m : (ℓ : Loc nD τ sig) → Buf (Elt Ideal) ℓ) (ρ : Dev nD → PrngReg)

/-- The cost volume and the peak table as launched. -/
abbrev cvOf (c : Dev nD) : S32x256x96x96.Idx → EReal := m ((c : Thread nD τ).loc main_arg0)
abbrev pkOf (c : Dev nD) : S32x256x2.Idx → BitVec 32 := m ((c : Thread nD τ).loc main_arg1)

/-- The shared last stretch over this program's shape facts. -/
abbrev tailK : FVec Ideal S8192x1 .f32 → FVec Ideal S32x256 .f32 :=
  Cert.Psr.tail Facts₀.shapeCasts_S8192x1_S32x256 Facts₀.reducesTo_S32x256_S32_d1 Facts₀.h_S_ Facts₀.bcast_S32_S32x1_0 Facts₀.bcast_S_S32x1 Facts₀.bcast_S32x1_S32x256_0_1

/-! ## The two arrays the call reads -/

theorem V_v0 (c : Dev nD) :
    (V m c main_v0 : S8192x96x96.Idx → EReal) = shapeCast S8192x96x96 (cvOf m c) Facts₀.shapeCasts_S32x256x96x96_S8192x96x96 := by
  show StableHlo.after hostOps0 (fun b => m (c, b)) (Proc.devRef .tc main_v0) = _
  after_results
  rfl

theorem V_v1 (c : Dev nD) :
    (V m c main_v1 : S8192x2.Idx → BitVec 32) = shapeCast S8192x2 (pkOf m c) Facts₀.shapeCasts_S32x256x2_S8192x2 := by
  show StableHlo.after hostOps0 (fun b => m (c, b)) (Proc.devRef .tc main_v1) = _
  after_results
  rfl

/-- Plane R of the regrouped cost volume is the plane of row R. -/
theorem v0_at (c : Dev nD) (R : Fin 8192) (h w : Fin 96) :
    (V m c main_v0 : S8192x96x96.Idx → EReal) (ix3 R h w) = rowOf (cvOf m c) R h w := by
  refine (congrFun (V_v0 m c) _).trans ?_
  exact shapeCast_apply (cvOf m c) Facts₀.shapeCasts_S32x256x96x96_S8192x96x96 (ix3 R h w) (ix4 (rowB R) (rowC R) h w)
    (by rewrite [Shape.rowMajor_val_four, Shape.rowMajor_val_three]
        show ((R.val / 256 * 256 + R.val % 256) * 96 + h.val) * 96 + w.val = (R.val * 96 + h.val) * 96 + w.val
        omega)

/-- Pair R of the regrouped peak table is the pair of row R. -/
theorem v1_at (c : Dev nD) (R : Fin 8192) (a : Fin 2) :
    (V m c main_v1 : S8192x2.Idx → BitVec 32) (ix2 R a) = pkOf m c (ix3 (rowB R) (rowC R) a) := by
  refine (congrFun (V_v1 m c) _).trans ?_
  exact shapeCast_apply (pkOf m c) Facts₀.shapeCasts_S32x256x2_S8192x2 (ix2 R a) (ix3 (rowB R) (rowC R) a)
    (by rewrite [Shape.rowMajor_val_three, Shape.rowMajor_val_two]
        show (R.val / 256 * 256 + R.val % 256) * 2 + a.val = R.val * 2 + a.val
        omega)

/-! ## The blocks a point reads and writes -/

/-- The printed index maps over the grid: point t works on block t of each array. -/
theorem idx_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 64 := (show cfg0.N = 64 from N_0) ▸ t.isLt

/-- Row 128 t + r of the 8192. -/
def rowAt (t : Fin cfg0.N) (r : Fin 128) : Fin 8192 := ⟨t.val * 128 + r.val, by have := t_lt t; have := r.isLt; omega⟩

theorem blk0_at (c : Dev nD) (t : Fin cfg0.N) (r : Fin 128) (h w : Fin 96) :
    (iblk m c 0 t : Vec Ideal S128x96x96 .f32) (ix3 r h w) = (V m c main_v0 : S8192x96x96.Idx → EReal) (ix3 (rowAt t r) h w) := by
  obtain ⟨e0, e1, e2, -, -, -, -⟩ := idx_facts t
  unfold iblk
  rw [View.read_apply]
  show V m c main_v0 _ = V m c main_v0 _
  congr 1
  funext a
  apply Fin.ext
  match a with
  | ⟨0, _⟩ => show win0_0.index t (0 : Fin 3) * 128 + 1 * r.val = t.val * 128 + r.val; rw [e0]; omega
  | ⟨1, _⟩ => show win0_0.index t (1 : Fin 3) * 96 + 1 * h.val = h.val; rw [e1]; omega
  | ⟨2, _⟩ => show win0_0.index t (2 : Fin 3) * 96 + 1 * w.val = w.val; rw [e2]; omega

theorem blk1_at (c : Dev nD) (t : Fin cfg0.N) (r : Fin 128) (a : Fin 2) :
    (iblk m c 1 t : Vec Ideal S128x2 .i32) (ix2 r a) = (V m c main_v1 : S8192x2.Idx → BitVec 32) (ix2 (rowAt t r) a) := by
  obtain ⟨-, -, -, e3, e4, -, -⟩ := idx_facts t
  unfold iblk
  rw [View.read_apply]
  show V m c main_v1 _ = V m c main_v1 _
  congr 1
  funext b
  apply Fin.ext
  match b with
  | ⟨0, _⟩ => show win0_1.index t (0 : Fin 2) * 128 + 1 * r.val = t.val * 128 + r.val; rw [e3]; omega
  | ⟨1, _⟩ => show win0_1.index t (1 : Fin 2) * 2 + 1 * a.val = a.val; rw [e4]; omega

/-- WHAT POINT t WRITES BACK is block t of the column of ratios. -/
theorem flushed_eq (hpk : ∀ c j, (pkOf m c j).toNat < 96) (c : Dev nD) (t : Fin cfg0.N) :
    (dats m 0 c).flushed 2 t = ((cfg0.win 2).blk t).view.read (Elt Ideal) (colK (cvOf m c) (pkOf m c)) := by
  show (cfg0.win 2).cut (grid0.coords t) ((dats m 0 c).after 2 t) = _
  rw [after0_2]
  obtain ⟨-, -, -, -, -, e5, e6⟩ := idx_facts t
  funext j
  show out0_2 (iblk m c 0 t) (iblk m c 1 t) j = colK (cvOf m c) (pkOf m c) (((cfg0.win 2).blk t).view.emb j)
  obtain ⟨r, rfl⟩ : ∃ r : Fin 128, j = ix2 r (0 : Fin 1) := ⟨j 0, by
    funext a
    match a with
    | ⟨0, _⟩ => rfl
    | ⟨1, _⟩ => exact Fin.ext (Nat.lt_one_iff.mp (j 1).isLt)⟩
  have e0 : (fun h w => (iblk m c 0 t : Vec Ideal S128x96x96 .f32) (ix3 r h w)) = rowOf (cvOf m c) (rowAt t r) :=
    funext fun h => funext fun w => (blk0_at m c t r h w).trans (v0_at m c (rowAt t r) h w)
  have e1 : (iblk m c 1 t : Vec Ideal S128x2 .i32) (ix2 r (0 : Fin 2)) = pyOf (pkOf m c) (rowAt t r) :=
    (blk1_at m c t r 0).trans (v1_at m c (rowAt t r) 0)
  have e2 : (iblk m c 1 t : Vec Ideal S128x2 .i32) (ix2 r (1 : Fin 2)) = pxOf (pkOf m c) (rowAt t r) :=
    (blk1_at m c t r 1).trans (v1_at m c (rowAt t r) 1)
  have hR : (((cfg0.win 2).blk t).view.emb (ix2 r (0 : Fin 1))) 0 = rowAt t r := by
    apply Fin.ext
    show win0_2.index t (0 : Fin 2) * 128 + 1 * r.val = t.val * 128 + r.val
    rw [e5]; omega
  refine (Pay.out_at (iblk m c 0 t) (iblk m c 1 t) r ?_ ?_).trans ?_
  · rw [e1]; exact hpk c _
  · rw [e2]; exact hpk c _
  · rw [e0, e1, e2]
    show _ = psrK (rowOf (cvOf m c) ((((cfg0.win 2).blk t).view.emb (ix2 r (0 : Fin 1))) 0)) _
    rw [hR]

/-- A row of the column is in point t's block iff each coordinate is in the block's range on its axis. -/
theorem mem_blk (t : Fin cfg0.N) (i : S8192x1.Idx) :
    i ∈ ((cfg0.win 2).blk t).view.set ↔ ∀ a : Fin 2, win0_2.index t a * S128x1.size a ≤ (i a).val ∧ (i a).val < win0_2.index t a * S128x1.size a + S128x1.size a := by
  show i ∈ ((View.whole main_v2).slice (win0_2.rect t)).set ↔ _
  rw [View.set_slice_whole, Rect.mem_set_unit]
  exact Iff.rfl

/-- Every row of the column lies in some point's block. -/
theorem cover (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  have ht : (i 0).val / 128 < cfg0.N := by rw [show cfg0.N = 64 from N_0]; omega
  obtain ⟨-, -, -, -, -, e5, e6⟩ := idx_facts ⟨(i 0).val / 128, ht⟩
  refine ⟨⟨(i 0).val / 128, ht⟩, flush0_2 _, ?_⟩
  rw [mem_blk]
  intro a
  match a with
  | ⟨0, _⟩ =>
    show win0_2.index ⟨(i 0).val / 128, ht⟩ (0 : Fin 2) * 128 ≤ (i 0).val ∧ (i 0).val < win0_2.index ⟨(i 0).val / 128, ht⟩ (0 : Fin 2) * 128 + 128
    rw [e5]; show (i 0).val / 128 * 128 ≤ (i 0).val ∧ (i 0).val < (i 0).val / 128 * 128 + 128; omega
  | ⟨1, _⟩ =>
    show win0_2.index ⟨(i 0).val / 128, ht⟩ (1 : Fin 2) * 1 ≤ (i 1).val ∧ (i 1).val < win0_2.index ⟨(i 0).val / 128, ht⟩ (1 : Fin 2) * 1 + 1
    rw [e6]; omega

/-- The column after the call. -/
theorem final (hpk : ∀ c j, (pkOf m c j).toNat < 96) (c : Dev nD) :
    (dats m 0 c).arrAt 2 cfg0.N = colK (cvOf m c) (pkOf m c) :=
  (dats m 0 c).arrAt_eq_of_cover 2 (colK (cvOf m c) (pkOf m c)) (fun t _ => flushed_eq m hpk c t) cover

/-- The result after the lines that follow the call. -/
theorem tail_eq (hpk : ∀ c j, (pkOf m c j).toNat < 96) (c : Dev nD) :
    Pipeline.afterTail₀ cfgs (dats m) 0 (V0 m) [hostOps1] c main_v11 = tailK (colK (cvOf m c) (pkOf m c)) := by
  unfold Pipeline.afterTail₀
  show StableHlo.after hostOps1 _ (Proc.devRef .tc main_v11) = _
  after_results
  have hw : Pipeline.withArrays (cfgs 0).spec c (V0 m c) (fun w => (dats m 0 c).arrAt w (cfgs 0).N) (Proc.devRef .tc main_v2)
      = colK (cvOf m c) (pkOf m c) :=
    (Pipeline.withArrays_arr spec0 launch0.win.arr_inj c _ _ 2).trans (final m hpk c)
  rw [hw]
  rfl

/-- The run, read: the result at the last stretch of the column of ratios, the arguments unchanged. -/
theorem run (hpk : ∀ c j, (pkOf m c j).toNat < 96) :
    θ_run defs (onTc (τ := τ) (main (F := Ideal))) ⟨m, fun _ => 0, ρ⟩ fun r => ∀ c : Dev nD,
      r.2.mem ((c : Thread nD τ).loc main_v11) = tailK (colK (cvOf m c) (pkOf m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v11 (Pipeline.mem_restRefs_of main_v11 (by decide) (by decide))).trans (tail_eq m hpk c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Val

end
-- ==== Proof.LibScatterSet.lean ====
/-
  A scatter whose body returns the update — "write these values at these places" — read at one position.

  The scatter visits the update's indices one after another and, for each, replaces the entry at the position that
  index lands on (when it lands inside the array).  Read at a fixed position i, the walk changes the entry only at
  the steps whose landing position is i.  So if exactly one update index j lands on i the result there is the
  update's entry j, and if none does the result is the array's own entry.

  The first part is about any such walk along a list; the second reads the landing position of an update index as
  one equation per axis, "start plus offset inside the window equals the coordinate"; the last states the two facts
  for the scatter itself.
-/
import Idealize.ShloMosaic.PureOps

namespace Cert.Lib.ScatterSet

open Idealize.ShloMosaic

/-! ## Writing along a list -/

section Walk
variable {ι κ α : Type} [DecidableEq κ]

/-- One step of the walk: item `n` lands at position `g n` (if anywhere) and the entry there becomes `upd n`. -/
def put (g : ι → Option κ) (upd : ι → α) (r : κ → α) (n : ι) : κ → α :=
  match g n with
  | some i => fun i' => if i' = i then upd n else r i'
  | none => r

/-- A step that lands on `i` leaves its own value there. -/
theorem put_hit (g : ι → Option κ) (upd : ι → α) (r : κ → α) (n : ι) (i : κ) (h : g n = some i) :
    put g upd r n i = upd n := by
  unfold put
  rw [h]
  exact if_pos rfl

/-- A step that does not land on `i` leaves the entry at `i` as it was. -/
theorem put_miss (g : ι → Option κ) (upd : ι → α) (r : κ → α) (n : ι) (i : κ) (h : g n ≠ some i) :
    put g upd r n i = r i := by
  unfold put
  cases hg : g n with
  | none => rfl
  | some k =>
    have hne : i ≠ k := fun e => h (by rw [hg, e])
    exact if_neg hne

/-- If no item of the list lands on `i`, the walk leaves the entry at `i` as it was. -/
theorem foldl_put_miss (g : ι → Option κ) (upd : ι → α) (L : List ι) (x : κ → α) (i : κ)
    (h : ∀ n ∈ L, g n ≠ some i) : L.foldl (put g upd) x i = x i := by
  induction L using List.reverseRecOn with
  | nil => rfl
  | append_singleton L a ih =>
    rw [List.foldl_append, List.foldl_cons, List.foldl_nil,
      put_miss g upd _ a i (h a (List.mem_append_right _ (List.mem_singleton_self a)))]
    exact ih (fun n hn => h n (List.mem_append_left _ hn))

/-- If item `j` of the list lands on `i` and it is the only item that does, the walk leaves `upd j` at `i`:
    later steps land elsewhere, and earlier writes at `i` (there are none but `j`'s) are overwritten. -/
theorem foldl_put_hit (g : ι → Option κ) (upd : ι → α) (L : List ι) (x : κ → α) (i : κ) (j : ι)
    (hj : j ∈ L) (hji : g j = some i) (huniq : ∀ n ∈ L, g n = some i → n = j) :
    L.foldl (put g upd) x i = upd j := by
  induction L using List.reverseRecOn with
  | nil => exact absurd hj List.not_mem_nil
  | append_singleton L a ih =>
    rw [List.foldl_append, List.foldl_cons, List.foldl_nil]
    by_cases ha : g a = some i
    · rw [put_hit g upd _ a i ha, huniq a (List.mem_append_right _ (List.mem_singleton_self a)) ha]
    · rw [put_miss g upd _ a i ha]
      refine ih ?_ (fun n hn => huniq n (List.mem_append_left _ hn))
      rcases List.mem_append.1 hj with h | h
      · exact h
      · have e : j = a := List.mem_singleton.1 h
        exact absurd (e ▸ hji) ha

end Walk

/-! ## Where an update index lands -/

section Scatter
variable {s si u : Shape} {α : Type} {w : Nat}

/-- Update index `j` lands on position `i` exactly when, on every axis, the window's start plus `j`'s offset inside
    the window is `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    by_cases hh : ∀ a, 0 ≤ d.start j idx a + d.window j a ∧ d.start j idx a + d.window j a < s.size a
    · rw [dif_pos hh] at h
      have e := congrFun (Option.some.inj h) a
      have h0 := (hh a).1
      rw [← e]
      show _ = (((d.start j idx a + d.window j a).toNat : Nat) : Int)
      omega
    · rw [dif_neg hh] at h
      exact absurd h (by simp)
  · intro h
    have hh : ∀ a, 0 ≤ d.start j idx a + d.window j a ∧ d.start j idx a + d.window j a < s.size a := fun a => by
      have := h a; have := (i a).isLt; omega
    rw [dif_pos hh]
    refine congrArg some (funext fun a => Fin.ext ?_)
    show (d.start j idx a + d.window j a).toNat = (i a).val
    have := h a; omega

/-- The scatter that writes the update is the walk along the update's indices in row-major order. -/
theorem scatter_eq_foldl (d : ScatterDims s si u) (x : s.Idx → α) (idx : IVec si w) (upd : u.Idx → α) :
    Host.scatter d (fun _ b => b) x idx upd =
      ((List.finRange u.numel).map u.rowMajor.symm).foldl (put (fun j => d.resultIdx? j idx) upd) x := by
  rw [List.foldl_map]
  unfold Host.scatter
  refine congrArg (fun f => List.foldl f x (List.finRange u.numel)) (funext fun r => funext fun n => ?_)
  unfold put
  dsimp only
  cases d.resultIdx? (u.rowMajor.symm n) idx <;> rfl

/-- A scatter that writes the update, read at a position `i` that exactly one update index `j` lands on: the
    update's entry `j`. -/
theorem scatter_set_hit (d : ScatterDims s si u) (x : s.Idx → α) (idx : IVec si w) (upd : u.Idx → α)
    (i : s.Idx) (j : u.Idx) (hji : d.resultIdx? j idx = some i)
    (huniq : ∀ j', d.resultIdx? j' idx = some i → j' = j) :
    Host.scatter d (fun _ b => b) x idx upd i = upd j := by
  rw [scatter_eq_foldl]
  exact foldl_put_hit (fun j => d.resultIdx? j idx) upd _ x i j
    (List.mem_map.2 ⟨u.rowMajor j, List.mem_finRange _, u.rowMajor.symm_apply_apply j⟩) hji (fun n _ hn => huniq n hn)

/-- The same when the landing positions of the update's indices are pairwise distinct. -/
theorem scatter_set_hit_of_injective (d : ScatterDims s si u) (x : s.Idx → α) (idx : IVec si w) (upd : u.Idx → α)
    (hinj : ∀ j j' i, d.resultIdx? j idx = some i → d.resultIdx? j' idx = some i → j = j')
    (i : s.Idx) (j : u.Idx) (hji : d.resultIdx? j idx = some i) :
    Host.scatter d (fun _ b => b) x idx upd i = upd j :=
  scatter_set_hit d x idx upd i j hji (fun j' h' => hinj j' j i h' hji)

/-- A scatter that writes the update, read at a position no update index lands on: the array's own entry. -/
theorem scatter_set_miss (d : ScatterDims s si u) (x : s.Idx → α) (idx : IVec si w) (upd : u.Idx → α)
    (i : s.Idx) (h : ∀ j, d.resultIdx? j idx ≠ some i) :
    Host.scatter d (fun _ b => b) x idx upd i = x i := by
  rw [scatter_eq_foldl]
  exact foldl_put_miss (fun j => d.resultIdx? j idx) upd _ x i (fun n _ => h n)

end Scatter

end Cert.Lib.ScatterSet
-- ==== Proof.RefTable.lean ====
/-
  The reference's table of write positions read at one entry.

  Entry (r, k) of the table is the position (r, clip(py + k / 5 - 2), clip(px + k % 5 - 2)), py and px the peak
  coordinates of row r and clip cutting to 0 .. 95.  For py in 0 .. 95 the sum py + k / 5 - 2 lies in -2 .. 97, so
  as a natural number the clipped value is min (py + k / 5 - 2) 95 with the subtraction stopping at 0; likewise for px.
-/
import proofs.«430624_j36567351558144_2_alg».proof.Proof.Spec
import proofs.«430624_j36567351558144_2_alg».proof.Proof.RefReadP
import Idealize.ShloMosaic.Lib.Pipeline.Value
import Idealize.ShloMosaic.Lib.ValueIdx
import Idealize.ShloMosaic.Lib.StableHlo.Predicate

noncomputable section

namespace Cert.ReferenceIdeal.RefTable

open Idealize.ShloMosaic Idealize.ShloMosaic.ValueIdx Cert.ReferenceIdeal Cert.ReferenceIdeal.Gen Cert.Psr

/-- s - 2 cut to 0 .. 95 (the subtraction of natural numbers stops at 0). -/
def clipN (s : ℕ) : ℕ := min (s - 2) 95

/-! ## Arrays laid side by side, read at a column -/

section Cols3

variable {α : Type} {N M A B C T : Nat}
variable (u : (⟨3, ![N, M, A]⟩ : Shape).Idx → α) (v : (⟨3, ![N, M, B]⟩ : Shape).Idx → α) (w : (⟨3, ![N, M, C]⟩ : Shape).Idx → α)
variable (h : Shape.Concatenates [⟨3, ![N, M, A]⟩, ⟨3, ![N, M, B]⟩, ⟨3, ![N, M, C]⟩] ⟨3, ![N, M, T]⟩ 2)

/-- Three rank-3 arrays joined along the last axis: a column of the first block reads the first array. -/
private theorem concat3_left (n : Fin N) (m : Fin M) (c : Fin T) (j : Fin A) (hc : c.val = j.val) :
    concatenate ⟨3, ![N, M, T]⟩ 2 [⟨⟨3, ![N, M, A]⟩, u⟩, ⟨⟨3, ![N, M, B]⟩, v⟩, ⟨⟨3, ![N, M, C]⟩, w⟩] h (ix3 n m c) = u (ix3 n m j) :=
  concatenate_apply_piece (t := ⟨3, ![N, M, T]⟩) 2 [⟨⟨3, ![N, M, A]⟩, u⟩, ⟨⟨3, ![N, M, B]⟩, v⟩, ⟨⟨3, ![N, M, C]⟩, w⟩] h
    (ix3 n m c) 0 (by show (0 : Nat) < 3; omega) ⟨3, ![N, M, A]⟩ u rfl rfl 0 rfl (ix3 n m j)
    (fun b hb => match b, hb with
      | ⟨0, _⟩, _ => rfl
      | ⟨1, _⟩, _ => rfl
      | ⟨2, _⟩, hb => absurd rfl hb)
    (by show 0 + j.val = c.val; omega)

/-- A column of the second block reads the second array. -/
private theorem concat3_mid (n : Fin N) (m : Fin M) (c : Fin T) (k : Fin B) (hc : c.val = A + k.val) :
    concatenate ⟨3, ![N, M, T]⟩ 2 [⟨⟨3, ![N, M, A]⟩, u⟩, ⟨⟨3, ![N, M, B]⟩, v⟩, ⟨⟨3, ![N, M, C]⟩, w⟩] h (ix3 n m c) = v (ix3 n m k) :=
  concatenate_apply_piece (t := ⟨3, ![N, M, T]⟩) 2 [⟨⟨3, ![N, M, A]⟩, u⟩, ⟨⟨3, ![N, M, B]⟩, v⟩, ⟨⟨3, ![N, M, C]⟩, w⟩] h
    (ix3 n m c) 1 (by show (1 : Nat) < 3; omega) ⟨3, ![N, M, B]⟩ v rfl rfl A (by show A + 0 = A; omega) (ix3 n m k)
    (fun b hb => match b, hb with
      | ⟨0, _⟩, _ => rfl
      | ⟨1, _⟩, _ => rfl
      | ⟨2, _⟩, hb => absurd rfl hb)
    (by show A + k.val = c.val; omega)

/-- A column of the third block reads the third array. -/
private theorem concat3_right (n : Fin N) (m : Fin M) (c : Fin T) (l : Fin C) (hc : c.val = A + B + l.val) :
    concatenate ⟨3, ![N, M, T]⟩ 2 [⟨⟨3, ![N, M, A]⟩, u⟩, ⟨⟨3, ![N, M, B]⟩, v⟩, ⟨⟨3, ![N, M, C]⟩, w⟩] h (ix3 n m c) = w (ix3 n m l) :=
  concatenate_apply_piece (t := ⟨3, ![N, M, T]⟩) 2 [⟨⟨3, ![N, M, A]⟩, u⟩, ⟨⟨3, ![N, M, B]⟩, v⟩, ⟨⟨3, ![N, M, C]⟩, w⟩] h
    (ix3 n m c) 2 (by show (2 : Nat) < 3; omega) ⟨3, ![N, M, C]⟩ w rfl rfl (A + B) (by show A + (B + 0) = A + B; omega) (ix3 n m l)
    (fun b hb => match b, hb with
      | ⟨0, _⟩, _ => rfl
      | ⟨1, _⟩, _ => rfl
      | ⟨2, _⟩, hb => absurd rfl hb)
    (by show A + B + l.val = c.val; omega)

end Cols3

section Cols2

variable {α : Type} {N A B T : Nat}
variable (u : (⟨2, ![N, A]⟩ : Shape).Idx → α) (v : (⟨2, ![N, B]⟩ : Shape).Idx → α)
variable (h : Shape.Concatenates [⟨2, ![N, A]⟩, ⟨2, ![N, B]⟩] ⟨2, ![N, T]⟩ 1)

/-- Two rank-2 arrays joined along the last axis: a column of the first block reads the first array. -/
private theorem concat2_left (n : Fin N) (c : Fin T) (j : Fin A) (hc : c.val = j.val) :
    concatenate ⟨2, ![N, T]⟩ 1 [⟨⟨2, ![N, A]⟩, u⟩, ⟨⟨2, ![N, B]⟩, v⟩] h (ix2 n c) = u (ix2 n j) :=
  concatenate_apply_piece (t := ⟨2, ![N, T]⟩) 1 [⟨⟨2, ![N, A]⟩, u⟩, ⟨⟨2, ![N, B]⟩, v⟩] h
    (ix2 n c) 0 (by show (0 : Nat) < 2; omega) ⟨2, ![N, A]⟩ u rfl rfl 0 rfl (ix2 n j)
    (fun b hb => match b, hb with
      | ⟨0, _⟩, _ => rfl
      | ⟨1, _⟩, hb => absurd rfl hb)
    (by show 0 + j.val = c.val; omega)

/-- A column of the second block reads the second array. -/
private theorem concat2_right (n : Fin N) (c : Fin T) (k : Fin B) (hc : c.val = A + k.val) :
    concatenate ⟨2, ![N, T]⟩ 1 [⟨⟨2, ![N, A]⟩, u⟩, ⟨⟨2, ![N, B]⟩, v⟩] h (ix2 n c) = v (ix2 n k) :=
  concatenate_apply_piece (t := ⟨2, ![N, T]⟩) 1 [⟨⟨2, ![N, A]⟩, u⟩, ⟨⟨2, ![N, B]⟩, v⟩] h
    (ix2 n c) 1 (by show (1 : Nat) < 2; omega) ⟨2, ![N, B]⟩ v rfl rfl A (by show A + 0 = A; omega) (ix2 n k)
    (fun b hb => match b, hb with
      | ⟨0, _⟩, _ => rfl
      | ⟨1, _⟩, hb => absurd rfl hb)
    (by show A + k.val = c.val; omega)

end Cols2

/-! ## The words -/

/-- A window coordinate as the program spells it, from the peak's coordinate word p and the window offset o: the sum
    p + (o - 2) cut to 0 .. 95 by a maximum and a minimum, then wrapped by 96 were it negative (it never is). -/
private def clipWord (p : BitVec 32) (o : ℕ) : BitVec 32 :=
  Scalar.select
    (IntOp.cmpi .slt (IntOp.minsi 95#32 (IntOp.maxsi 0#32 (IntOp.addi p (IntOp.addi 4294967294#32 (BitVec.ofNat 32 o))))) 0#32)
    (IntOp.addi (IntOp.minsi 95#32 (IntOp.maxsi 0#32 (IntOp.addi p (IntOp.addi 4294967294#32 (BitVec.ofNat 32 o))))) 96#32)
    (IntOp.minsi 95#32 (IntOp.maxsi 0#32 (IntOp.addi p (IntOp.addi 4294967294#32 (BitVec.ofNat 32 o)))))

/-- For a peak coordinate in 0 .. 95 and an offset in 0 .. 4 that word is min (p + o - 2) 95: 480 cases, each computed. -/
private theorem clipWord_small : ∀ p : Fin 96, ∀ o : Fin 5,
    clipWord (BitVec.ofNat 32 p.val) o.val = BitVec.ofNat 32 (min (p.val + o.val - 2) 95) := by
  decide +kernel

private theorem clipWord_eq (p : BitVec 32) (hp : p.toNat < 96) (o : ℕ) (ho : o < 5) :
    clipWord p o = BitVec.ofNat 32 (clipN (p.toNat + o)) := by
  have h := clipWord_small ⟨p.toNat, hp⟩ ⟨o, ho⟩
  simp only [BitVec.ofNat_toNat, BitVec.setWidth_eq] at h
  exact h

/-- A row number below 8192 has its sign bit clear, so the wrap by 8192 leaves it. -/
private theorem rowWord (r : ℕ) (hr : r < 8192) :
    Scalar.select (IntOp.cmpi .slt (BitVec.ofNat 32 r) 0#32) (IntOp.addi (BitVec.ofNat 32 r) 8192#32) (BitVec.ofNat 32 r)
      = BitVec.ofNat 32 r := by
  have h : ¬ (IntOp.cmpi .slt (BitVec.ofNat 32 r) 0#32 = 1#1) := by
    unfold IntOp.cmpi
    rw [show (0#32 : BitVec 32) = BitVec.ofNat 32 0 from rfl,
      StableHlo.Predicate.slt_ofNat_iff r 0 (by omega) (by omega)]
    omega
  exact if_neg h

/-! ## The window offsets: entry (k, 0) is k / 5 - 2 and entry (k, 1) is k % 5 - 2 -/

private theorem off_y (k : Fin 25) :
    Read.val_main_v9 (F := Ideal) (ix2 k (0 : Fin 2)) = IntOp.addi 4294967294#32 (BitVec.ofNat 32 (k.val / 5)) := by
  unfold Read.val_main_v9
  refine (concat2_left (N := 25) (A := 1) (B := 1) (T := 2) (Read.val_main_v7 (F := Ideal)) (Read.val_main_v8 (F := Ideal))
    concatenates_S25x1_S25x1_S25x2_d1 k (0 : Fin 2) (0 : Fin 1) rfl).trans ?_
  refine (Read.val_main_v7_apply _).trans ?_
  refine (Read.val_main_v5_apply _).trans ?_
  refine (Read.val_main_v3_apply _).trans ?_
  rfl

private theorem off_x (k : Fin 25) :
    Read.val_main_v9 (F := Ideal) (ix2 k (1 : Fin 2)) = IntOp.addi 4294967294#32 (BitVec.ofNat 32 (k.val % 5)) := by
  unfold Read.val_main_v9
  refine (concat2_right (N := 25) (A := 1) (B := 1) (T := 2) (Read.val_main_v7 (F := Ideal)) (Read.val_main_v8 (F := Ideal))
    concatenates_S25x1_S25x1_S25x2_d1 k (1 : Fin 2) (0 : Fin 1) rfl).trans ?_
  refine (Read.val_main_v8_apply _).trans ?_
  refine (Read.val_main_v6_apply _).trans ?_
  refine (Read.val_main_v4_apply _).trans ?_
  rfl

/-! ## The peak coordinates plus the offsets -/

/-- Entry (b, c, k, d) of the sum is the peak's coordinate d in row (b, c) plus offset (k, d). -/
private theorem sum_at (x1 : IVec S32x256x2 32) (b : Fin 32) (c : Fin 256) (k : Fin 25) (d : Fin 2) :
    Read.val_main_v14 (F := Ideal) x1 (ix4 b c k d)
      = IntOp.addi (x1 (ix3 b c d)) (Read.val_main_v9 (F := Ideal) (ix2 k d)) := by
  have e1 : Read.idx_main_v10 (Read.idx_main_v12 (ix4 b c k d)) = ix3 b c d := by
    funext a; match a with | ⟨0, _⟩ => rfl | ⟨1, _⟩ => rfl | ⟨2, _⟩ => rfl
  have e2 : Read.idx_main_v11 (Read.idx_main_v13 (ix4 b c k d)) = ix2 k d := by
    funext a; match a with | ⟨0, _⟩ => rfl | ⟨1, _⟩ => rfl
  rw [Read.val_main_v14_apply, Read.val_main_v12_apply, Read.val_main_v10_apply, Read.val_main_v13_apply,
    Read.val_main_v11_apply, e1, e2]

/-- The flattened position of (b, c, k) among 32 x 256 x 25 splits back into b, c, k. -/
private theorem split_bck (b : Fin 32) (c : Fin 256) (k : Fin 25) :
    ((b.val * 256 + c.val) * 25 + k.val) / 6400 = b.val
      ∧ ((b.val * 256 + c.val) * 25 + k.val) / 25 % 256 = c.val
      ∧ ((b.val * 256 + c.val) * 25 + k.val) / 1 % 25 = k.val := by
  have hb := b.isLt; have hc := c.isLt; have hk := k.isLt
  refine ⟨?_, ?_, ?_⟩ <;> omega

/-- The first column of the sum, as a 32 x 256 x 25 array. -/
private theorem sumy_at (x1 : IVec S32x256x2 32) (b : Fin 32) (c : Fin 256) (k : Fin 25) :
    Read.val_main_v16 (F := Ideal) x1 (ix3 b c k)
      = IntOp.addi (x1 (ix3 b c (0 : Fin 2))) (IntOp.addi 4294967294#32 (BitVec.ofNat 32 (k.val / 5))) := by
  have e : Read.idx_main_v15 (Read.idx_main_v16 (ix3 b c k)) = ix4 b c k (0 : Fin 2) := by
    funext a
    match a with
    | ⟨0, _⟩ => exact Fin.ext (split_bck b c k).1
    | ⟨1, _⟩ => exact Fin.ext (split_bck b c k).2.1
    | ⟨2, _⟩ => exact Fin.ext (split_bck b c k).2.2
    | ⟨3, _⟩ => rfl
  rw [Read.val_main_v16_apply, Read.val_main_v15_apply, e, sum_at, off_y]

/-- The second column of the sum, as a 32 x 256 x 25 array. -/
private theorem sumx_at (x1 : IVec S32x256x2 32) (b : Fin 32) (c : Fin 256) (k : Fin 25) :
    Read.val_main_v20 (F := Ideal) x1 (ix3 b c k)
      = IntOp.addi (x1 (ix3 b c (1 : Fin 2))) (IntOp.addi 4294967294#32 (BitVec.ofNat 32 (k.val % 5))) := by
  have e : Read.idx_main_v19 (Read.idx_main_v20 (ix3 b c k)) = ix4 b c k (1 : Fin 2) := by
    funext a
    match a with
    | ⟨0, _⟩ => exact Fin.ext (split_bck b c k).1
    | ⟨1, _⟩ => exact Fin.ext (split_bck b c k).2.1
    | ⟨2, _⟩ => exact Fin.ext (split_bck b c k).2.2
    | ⟨3, _⟩ => rfl
  rw [Read.val_main_v20_apply, Read.val_main_v19_apply, e, sum_at, off_x]

/-! ## The cut to 0 .. 95 -/

private theorem cuty_at (x1 : IVec S32x256x2 32) (b : Fin 32) (c : Fin 256) (k : Fin 25) :
    Read.val_main_v17 (F := Ideal) x1 (ix3 b c k)
      = IntOp.minsi 95#32 (IntOp.maxsi 0#32 (Read.val_main_v16 (F := Ideal) x1 (ix3 b c k))) := by
  rw [Read.val_main_v17_apply, Read.val_main_call0_v4_apply, Read.val_main_call0_v3_apply, Read.val_main_c_1_apply,
    Read.val_main_call0_v2_apply, Read.val_main_call0_v1_apply, Read.val_main_call0_v0_apply, Read.val_main_c_0_apply]

private theorem cutx_at (x1 : IVec S32x256x2 32) (b : Fin 32) (c : Fin 256) (k : Fin 25) :
    Read.val_main_v21 (F := Ideal) x1 (ix3 b c k)
      = IntOp.minsi 95#32 (IntOp.maxsi 0#32 (Read.val_main_v20 (F := Ideal) x1 (ix3 b c k))) := by
  rw [Read.val_main_v21_apply, Read.val_main_call1_v4_apply, Read.val_main_call1_v3_apply, Read.val_main_c_3_apply,
    Read.val_main_call1_v2_apply, Read.val_main_call1_v1_apply, Read.val_main_call1_v0_apply, Read.val_main_c_2_apply]

/-! ## Regrouped by row: row r is channel r % 256 of batch r / 256 -/

/-- The flattened position of (r, k) among 8192 x 25 splits into r / 256, r % 256, k. -/
private theorem split_rk (r : Fin 8192) (k : Fin 25) :
    (r.val * 25 + k.val) / 6400 = r.val / 256
      ∧ (r.val * 25 + k.val) / 25 % 256 = r.val % 256
      ∧ (r.val * 25 + k.val) % 25 = k.val := by
  have hr := r.isLt; have hk := k.isLt
  refine ⟨?_, ?_, ?_⟩ <;> omega

private theorem rowy_at (x1 : IVec S32x256x2 32) (r : Fin 8192) (k : Fin 25) :
    Read.val_main_v18 (F := Ideal) x1 (ix2 r k) = Read.val_main_v17 (F := Ideal) x1 (ix3 (rowB r) (rowC r) k) := by
  have e : Read.idx_main_v18 (ix2 r k) = ix3 (rowB r) (rowC r) k := by
    funext a
    match a with
    | ⟨0, _⟩ => exact Fin.ext (split_rk r k).1
    | ⟨1, _⟩ => exact Fin.ext (split_rk r k).2.1
    | ⟨2, _⟩ => exact Fin.ext (split_rk r k).2.2
  rw [Read.val_main_v18_apply, e]

private theorem rowx_at (x1 : IVec S32x256x2 32) (r : Fin 8192) (k : Fin 25) :
    Read.val_main_v22 (F := Ideal) x1 (ix2 r k) = Read.val_main_v21 (F := Ideal) x1 (ix3 (rowB r) (rowC r) k) := by
  have e : Read.idx_main_v22 (ix2 r k) = ix3 (rowB r) (rowC r) k := by
    funext a
    match a with
    | ⟨0, _⟩ => exact Fin.ext (split_rk r k).1
    | ⟨1, _⟩ => exact Fin.ext (split_rk r k).2.1
    | ⟨2, _⟩ => exact Fin.ext (split_rk r k).2.2
  rw [Read.val_main_v22_apply, e]

/-! ## The wrap of negative coordinates, and the three columns -/

private theorem wrapy_at (x1 : IVec S32x256x2 32) (r : Fin 8192) (k : Fin 25) :
    Read.val_main_v36 (F := Ideal) x1 (ix2 r k) = clipWord (pyOf x1 r) (k.val / 5) := by
  rw [Read.val_main_v36_apply, Read.val_main_v33_apply, Read.val_main_v35_apply, Read.val_main_v32_apply,
    Read.val_main_c_6_apply, Read.val_main_v34_apply, Read.val_main_c_7_apply, rowy_at, cuty_at, sumy_at]
  rfl

private theorem wrapx_at (x1 : IVec S32x256x2 32) (r : Fin 8192) (k : Fin 25) :
    Read.val_main_v41 (F := Ideal) x1 (ix2 r k) = clipWord (pxOf x1 r) (k.val % 5) := by
  rw [Read.val_main_v41_apply, Read.val_main_v38_apply, Read.val_main_v40_apply, Read.val_main_v37_apply,
    Read.val_main_c_8_apply, Read.val_main_v39_apply, Read.val_main_c_9_apply, rowx_at, cutx_at, sumx_at]
  rfl

private theorem wraprow_at (r : Fin 8192) (k : Fin 25) :
    Read.val_main_v31 (F := Ideal) (ix2 r k) = BitVec.ofNat 32 r.val := by
  have e : Read.val_main_v25 (F := Ideal) (ix2 r k) = BitVec.ofNat 32 r.val := by
    refine (Read.val_main_v25_apply _).trans ?_
    refine (Read.val_main_v24_apply _).trans ?_
    rfl
  rw [Read.val_main_v31_apply, Read.val_main_v28_apply, Read.val_main_v30_apply, Read.val_main_v27_apply,
    Read.val_main_c_4_apply, Read.val_main_v29_apply, Read.val_main_c_5_apply, e]
  exact rowWord r.val r.isLt

theorem table_row (x1 : IVec S32x256x2 32) (r : Fin 8192) (k : Fin 25) :
    Read.val_main_v45 (F := Ideal) x1 (ix3 r k (0 : Fin 3)) = BitVec.ofNat 32 r.val := by
  have e : Read.idx_main_v42 (ix3 r k (0 : Fin 1)) = ix2 r k := by
    funext a; match a with | ⟨0, _⟩ => rfl | ⟨1, _⟩ => rfl
  unfold Read.val_main_v45
  refine (concat3_left (N := 8192) (M := 25) (A := 1) (B := 1) (C := 1) (T := 3) (Read.val_main_v42 (F := Ideal))
    (Read.val_main_v43 (F := Ideal) x1) (Read.val_main_v44 (F := Ideal) x1)
    concatenates_S8192x25x1_S8192x25x1_S8192x25x1_S8192x25x3_d2 r k (0 : Fin 3) (0 : Fin 1) rfl).trans ?_
  rw [Read.val_main_v42_apply, e]
  exact wraprow_at r k

theorem table_y (x1 : IVec S32x256x2 32) (hpk : ∀ j, (x1 j).toNat < 96) (r : Fin 8192) (k : Fin 25) :
    Read.val_main_v45 (F := Ideal) x1 (ix3 r k (1 : Fin 3)) = BitVec.ofNat 32 (clipN ((pyOf x1 r).toNat + k.val / 5)) := by
  have e : Read.idx_main_v43 (ix3 r k (0 : Fin 1)) = ix2 r k := by
    funext a; match a with | ⟨0, _⟩ => rfl | ⟨1, _⟩ => rfl
  unfold Read.val_main_v45
  refine (concat3_mid (N := 8192) (M := 25) (A := 1) (B := 1) (C := 1) (T := 3) (Read.val_main_v42 (F := Ideal))
    (Read.val_main_v43 (F := Ideal) x1) (Read.val_main_v44 (F := Ideal) x1)
    concatenates_S8192x25x1_S8192x25x1_S8192x25x1_S8192x25x3_d2 r k (1 : Fin 3) (0 : Fin 1) rfl).trans ?_
  rw [Read.val_main_v43_apply, e, wrapy_at]
  exact clipWord_eq (pyOf x1 r) (hpk (ix3 (rowB r) (rowC r) (0 : Fin 2))) (k.val / 5) (by have := k.isLt; omega)

theorem table_x (x1 : IVec S32x256x2 32) (hpk : ∀ j, (x1 j).toNat < 96) (r : Fin 8192) (k : Fin 25) :
    Read.val_main_v45 (F := Ideal) x1 (ix3 r k (2 : Fin 3)) = BitVec.ofNat 32 (clipN ((pxOf x1 r).toNat + k.val % 5)) := by
  have e : Read.idx_main_v44 (ix3 r k (0 : Fin 1)) = ix2 r k := by
    funext a; match a with | ⟨0, _⟩ => rfl | ⟨1, _⟩ => rfl
  unfold Read.val_main_v45
  refine (concat3_right (N := 8192) (M := 25) (A := 1) (B := 1) (C := 1) (T := 3) (Read.val_main_v42 (F := Ideal))
    (Read.val_main_v43 (F := Ideal) x1) (Read.val_main_v44 (F := Ideal) x1)
    concatenates_S8192x25x1_S8192x25x1_S8192x25x1_S8192x25x3_d2 r k (2 : Fin 3) (0 : Fin 1) rfl).trans ?_
  rw [Read.val_main_v44_apply, e, wrapx_at]
  exact clipWord_eq (pxOf x1 r) (hpk (ix3 (rowB r) (rowC r) (1 : Fin 2))) (k.val % 5) (by omega)

end Cert.ReferenceIdeal.RefTable

end
-- ==== Proof.RefIdx.lean ====
/-
  The reference's weight array read at one position.

  The reference starts from an array of ones and writes 0 at the 25 positions (clip(py + a), clip(px + b)),
  a and b running over -2 .. 2 and clip cutting a coordinate to 0 .. 95, of every row.  For a peak inside the plane
  those positions are exactly the window |h - py| <= 2, |w - px| <= 2, so the array holds 0 there and 1 elsewhere.
  Writes that land on the same position write the same value, so their order does not matter.
-/
import proofs.«430624_j36567351558144_2_alg».proof.Proof.Spec
import proofs.«430624_j36567351558144_2_alg».proof.Proof.LibScatterSet
import proofs.«430624_j36567351558144_2_alg».proof.Proof.RefTable
import proofs.«430624_j36567351558144_2_alg».proof.Proof.RefReadP
import Idealize.ShloMosaic.Lib.StableHlo.Predicate

noncomputable section

namespace Cert.ReferenceIdeal.RefIdx

open Idealize.ShloMosaic Idealize.ShloMosaic.ValueIdx Cert.ReferenceIdeal Cert.ReferenceIdeal.Gen Cert.Psr
open Cert.Lib.ScatterSet
open Idealize.ShloMosaic.StableHlo.Predicate (toInt_ofNat_small)

/-! ## A walk whose items all write one value -/

section Walk
variable {ι κ α : Type} [DecidableEq κ]

/-- If every item writes the same value v and some item of the list lands on i, the walk leaves v at i: the last
    item that lands on i writes v there, and the later ones land elsewhere. -/
private theorem foldl_put_const (g : ι → Option κ) (upd : ι → α) (v : α) (hv : ∀ n, upd n = v) (L : List ι)
    (x : κ → α) (i : κ) (h : ∃ n ∈ L, g n = some i) : L.foldl (put g upd) x i = v := by
  induction L using List.reverseRecOn with
  | nil => obtain ⟨n, hn, _⟩ := h; exact absurd hn List.not_mem_nil
  | append_singleton L a ih =>
    rw [List.foldl_append, List.foldl_cons, List.foldl_nil]
    by_cases ha : g a = some i
    · rw [put_hit g upd _ a i ha]; exact hv a
    · rw [put_miss g upd _ a i ha]
      obtain ⟨n, hn, hni⟩ := h
      refine ih ⟨n, ?_, hni⟩
      rcases List.mem_append.1 hn with h' | h'
      · exact h'
      · have e : n = a := List.mem_singleton.1 h'
        exact absurd (e ▸ hni) ha

end Walk

/-- A scatter that writes the update, all of whose entries are one value v, read at a position some update index
    lands on: v. -/
private theorem scatter_set_const {s si u : Shape} {α : Type} {w : Nat} (d : ScatterDims s si u) (x : s.Idx → α)
    (idx : IVec si w) (upd : u.Idx → α) (v : α) (hv : ∀ j, upd j = v) (i : s.Idx) (j : u.Idx)
    (hj : d.resultIdx? j idx = some i) : Host.scatter d (fun _ b => b) x idx upd i = v := by
  rw [scatter_eq_foldl]
  exact foldl_put_const (fun j => d.resultIdx? j idx) upd v hv _ x i
    ⟨j, List.mem_map.2 ⟨u.rowMajor j, List.mem_finRange _, u.rowMajor.symm_apply_apply j⟩, hj⟩

/-! ## Where an entry of the table lands -/

/-- The scatter's dimension numbers: every axis of the array is addressed by one word of the table's last axis, and
    the window is a single element. -/
private abbrev dS : ScatterDims S8192x96x96 S8192x25x3 S8192x25 := scatter_S8192x96x96_S8192x25x3_S8192x25_n_012_012_2

/-- The start on axis 0 for entry (r', k) is the table's word (r', k, 0) read as a signed integer; likewise on
    axes 1 and 2 below. -/
private theorem start0 (idx : IVec S8192x25x3 32) (r' : Fin 8192) (k : Fin 25) :
    dS.start (ix2 r' k) idx (0 : Fin 3) = (idx (ix3 r' k (0 : Fin 3))).toInt := by
  unfold ScatterDims.start
  rw [dif_pos (by decide)]
  refine congrArg (fun q => (idx q).toInt) (funext fun b => ?_)
  match b with
  | ⟨0, _⟩ => rfl
  | ⟨1, _⟩ => rfl
  | ⟨2, _⟩ => rfl

/-- No axis of the array is a window axis, so the offset inside the window is 0 on every axis. -/
private theorem window_eq (j : S8192x25.Idx) (a : Fin 3) : dS.window j a = 0 := by
  unfold ScatterDims.window
  rw [dif_neg (by revert a; decide)]

private theorem start1 (idx : IVec S8192x25x3 32) (r' : Fin 8192) (k : Fin 25) :
    dS.start (ix2 r' k) idx (1 : Fin 3) = (idx (ix3 r' k (1 : Fin 3))).toInt := by
  unfold ScatterDims.start
  rw [dif_pos (by decide)]
  refine congrArg (fun q => (idx q).toInt) (funext fun b => ?_)
  match b with
  | ⟨0, _⟩ => rfl
  | ⟨1, _⟩ => rfl
  | ⟨2, _⟩ => rfl

private theorem start2 (idx : IVec S8192x25x3 32) (r' : Fin 8192) (k : Fin 25) :
    dS.start (ix2 r' k) idx (2 : Fin 3) = (idx (ix3 r' k (2 : Fin 3))).toInt := by
  unfold ScatterDims.start
  rw [dif_pos (by decide)]
  refine congrArg (fun q => (idx q).toInt) (funext fun b => ?_)
  match b with
  | ⟨0, _⟩ => rfl
  | ⟨1, _⟩ => rfl
  | ⟨2, _⟩ => rfl

/-- Entry (r', k) of the table lands on position (r, h, w) exactly when its three words, read as signed integers,
    are r, h and w. -/
private theorem lands_iff (idx : IVec S8192x25x3 32) (r' : Fin 8192) (k : Fin 25) (r : Fin 8192) (h w : Fin 96) :
    dS.resultIdx? (ix2 r' k) idx = some (ix3 r h w) ↔
      (idx (ix3 r' k (0 : Fin 3))).toInt = (r.val : Int) ∧ (idx (ix3 r' k (1 : Fin 3))).toInt = (h.val : Int) ∧
        (idx (ix3 r' k (2 : Fin 3))).toInt = (w.val : Int) := by
  rw [resultIdx?_eq_some_iff]
  constructor
  · intro hall
    have e0 := hall (0 : Fin 3)
    have e1 := hall (1 : Fin 3)
    have e2 := hall (2 : Fin 3)
    rw [start0, window_eq] at e0
    rw [start1, window_eq] at e1
    rw [start2, window_eq] at e2
    exact ⟨by simpa using e0, by simpa using e1, by simpa using e2⟩
  · rintro ⟨e0, e1, e2⟩ a
    match a with
    | ⟨0, _⟩ =>
      show dS.start (ix2 r' k) idx (0 : Fin 3) + (dS.window (ix2 r' k) (0 : Fin 3) : Int) = ((r.val : Nat) : Int)
      rw [start0, window_eq]; simpa using e0
    | ⟨1, _⟩ =>
      show dS.start (ix2 r' k) idx (1 : Fin 3) + (dS.window (ix2 r' k) (1 : Fin 3) : Int) = ((h.val : Nat) : Int)
      rw [start1, window_eq]; simpa using e1
    | ⟨2, _⟩ =>
      show dS.start (ix2 r' k) idx (2 : Fin 3) + (dS.window (ix2 r' k) (2 : Fin 3) : Int) = ((w.val : Nat) : Int)
      rw [start2, window_eq]; simpa using e2

/-! ## The two constants -/

private theorem one_bits : (FloatOps.ofBits (F := Ideal) .f32 0x3F800000#32 : EReal) = 1 := by
  show Ideal.ofBits .f32 0x3F800000#32 = 1
  simp [Ideal.ofBits, Ideal.ieee, -EReal.coe_mul]; norm_num

private theorem zero_bits : (FloatOps.ofBits (F := Ideal) .f32 0x00000000#32 : EReal) = 0 :=
  Ideal.ofBits_zero_f32

/-! ## The window -/

/-- For p and h in 0 .. 95: h is one of the five cut coordinates min (p + o - 2) 95, o = 0 .. 4, exactly when
    it is within two steps of p. -/
private theorem window_fact (p h : ℕ) (hp : p < 96) (hh : h < 96) :
    (∃ o, o < 5 ∧ min (p + o - 2) 95 = h) ↔ (p ≤ h + 2 ∧ h ≤ p + 2) := by
  constructor
  · rintro ⟨o, ho, e⟩; omega
  · intro hn
    exact ⟨h + 2 - p, by omega, by omega⟩

/-! ## The scatter over such a table -/

private theorem scatter_of_table {α : Type} (v0 v1 : α) (idx : IVec S8192x25x3 32) (x : S8192x96x96.Idx → α)
    (upd : S8192x25.Idx → α) (py px : Fin 8192 → ℕ) (hpy : ∀ r, py r < 96) (hpx : ∀ r, px r < 96)
    (h0 : ∀ r k, idx (ix3 r k (0 : Fin 3)) = BitVec.ofNat 32 r.val)
    (h1 : ∀ r k, idx (ix3 r k (1 : Fin 3)) = BitVec.ofNat 32 (min (py r + k.val / 5 - 2) 95))
    (h2 : ∀ r k, idx (ix3 r k (2 : Fin 3)) = BitVec.ofNat 32 (min (px r + k.val % 5 - 2) 95))
    (hx : ∀ i, x i = v1) (hu : ∀ j, upd j = v0) (r : Fin 8192) (h w : Fin 96) :
    Host.scatter dS (fun _ b => b) x idx upd (ix3 r h w) =
      if (py r ≤ h.val + 2 ∧ h.val ≤ py r + 2) ∧ (px r ≤ w.val + 2 ∧ w.val ≤ px r + 2) then v0 else v1 := by
  have hland : ∀ (r' : Fin 8192) (k : Fin 25), dS.resultIdx? (ix2 r' k) idx = some (ix3 r h w) ↔
      r'.val = r.val ∧ min (py r' + k.val / 5 - 2) 95 = h.val ∧ min (px r' + k.val % 5 - 2) 95 = w.val := by
    intro r' k
    have hr' := r'.isLt
    have := hpy r'
    have := hpx r'
    rw [lands_iff, h0, h1, h2, toInt_ofNat_small _ (by omega), toInt_ofNat_small _ (by omega),
      toInt_ofNat_small _ (by omega)]
    omega
  by_cases hn : (py r ≤ h.val + 2 ∧ h.val ≤ py r + 2) ∧ (px r ≤ w.val + 2 ∧ w.val ≤ px r + 2)
  · rw [if_pos hn]
    obtain ⟨oy, hoy, ey⟩ := (window_fact (py r) h.val (hpy r) h.isLt).2 hn.1
    obtain ⟨ox, hox, ex⟩ := (window_fact (px r) w.val (hpx r) w.isLt).2 hn.2
    refine scatter_set_const dS x idx upd v0 hu (ix3 r h w) (ix2 r (⟨5 * oy + ox, by omega⟩ : Fin 25)) ?_
    rw [hland]
    refine ⟨rfl, ?_, ?_⟩
    · show min (py r + (5 * oy + ox) / 5 - 2) 95 = h.val
      have : (5 * oy + ox) / 5 = oy := by omega
      rw [this]; exact ey
    · show min (px r + (5 * oy + ox) % 5 - 2) 95 = w.val
      have : (5 * oy + ox) % 5 = ox := by omega
      rw [this]; exact ex
  · rw [if_neg hn]
    refine (scatter_set_miss dS x idx upd (ix3 r h w) (fun j hj => hn ?_)).trans (hx _)
    obtain ⟨r', k, rfl⟩ : ∃ (r' : Fin 8192) (k : Fin 25), j = ix2 r' k := ⟨j 0, j 1, eq_ix2 j⟩
    rw [hland] at hj
    obtain ⟨er, ey, ex⟩ := hj
    have err : r' = r := Fin.ext er
    subst err
    have hk := k.isLt
    exact ⟨(window_fact (py r') h.val (hpy r') h.isLt).1 ⟨k.val / 5, by omega, ey⟩,
      (window_fact (px r') w.val (hpx r') w.isLt).1 ⟨k.val % 5, by omega, ex⟩⟩

/-! ## The weight array -/

/-- The weight array at row r, line h, column w. -/
theorem weights_at (x1 : IVec S32x256x2 32) (hpk : ∀ j, (x1 j).toNat < 96) (r : Fin 8192) (h w : Fin 96) :
    Read.val_main_v47 (F := Ideal) x1 (ix3 r h w) = wgt (pyOf x1 r) (pxOf x1 r) h w := by
  -- the array of ones, the table of positions and the update of zeros give 0 inside the window and 1 outside
  have key := scatter_of_table (0 : EReal) 1 (Read.val_main_v45 (F := Ideal) x1) (Read.val_main_v26 (F := Ideal))
    (Read.val_main_v46 (F := Ideal))
    (fun r => (pyOf x1 r).toNat) (fun r => (pxOf x1 r).toNat) (fun r => hpk _) (fun r => hpk _)
    (fun r k => RefTable.table_row x1 r k) (fun r k => RefTable.table_y x1 hpk r k)
    (fun r k => RefTable.table_x x1 hpk r k)
    (fun i => ((Read.val_main_v26_apply (F := Ideal) i).trans (Read.val_main_cst_apply (F := Ideal) _)).trans one_bits)
    (fun j => ((Read.val_main_v46_apply (F := Ideal) j).trans (Read.val_main_cst_10_apply (F := Ideal) _)).trans zero_bits)
    r h w
  unfold wgt
  by_cases hn : near (pyOf x1 r) h ∧ near (pxOf x1 r) w
  · rw [if_pos hn]; exact key.trans (if_pos hn)
  · rw [if_neg hn]; exact key.trans (if_neg hn)

end Cert.ReferenceIdeal.RefIdx

end
-- ==== Proof.RefRow.lean ====
/-
  The reference's column of ratios read at one row: the reference's arrangement of the peak-to-sidelobe ratio, of
  that row's plane of the cost volume and that row's plane of the weight array.
-/
import proofs.«430624_j36567351558144_2_alg».proof.Proof.Spec
import proofs.«430624_j36567351558144_2_alg».proof.Proof.RefReadP

noncomputable section

namespace Cert.ReferenceIdeal.RefRow

open Idealize.ShloMosaic Idealize.ShloMosaic.ValueIdx Cert.ReferenceIdeal Cert.ReferenceIdeal.Gen Cert.Psr

/-- The weight plane of row r: the reference's weight array read along that row. -/
private abbrev wtOf (x1 : IVec S32x256x2 32) (r : Fin 8192) : Row :=
  fun h w => Read.val_main_v47 (F := Ideal) x1 (ix3 r h w)

/-! ## Position k of row r in the two flattened arrays

Row r, position k of the 8192 x 9216 arrangement is word r * 9216 + k of the row-major order; in the
32 x 256 x 96 x 96 arrangement that word is batch r / 256, channel r % 256, line k / 96, column k % 96, and in the
8192 x 96 x 96 arrangement it is row r, line k / 96, column k % 96. -/

private theorem cv_at (x0 : FVec Ideal S32x256x96x96 .f32) (r : Fin 8192) (k : Fin 9216) :
    Read.val_main_v48 (F := Ideal) x0 (ix2 r k) = rowOf x0 r (flatH k) (flatW k) := by
  rw [Read.val_main_v48_apply]
  unfold rowOf
  refine congrArg x0 (funext fun a => Fin.ext ?_)
  have hr := r.isLt
  have hk := k.isLt
  match a with
  | ⟨0, _⟩ => show (r.val * 9216 + k.val) / 2359296 = r.val / 256; omega
  | ⟨1, _⟩ => show (r.val * 9216 + k.val) / 9216 % 256 = r.val % 256; omega
  | ⟨2, _⟩ => show (r.val * 9216 + k.val) / 96 % 96 = k.val / 96; omega
  | ⟨3, _⟩ => show (r.val * 9216 + k.val) % 96 = k.val % 96; omega

private theorem wt_at (x1 : IVec S32x256x2 32) (r : Fin 8192) (k : Fin 9216) :
    Read.val_main_v49 (F := Ideal) x1 (ix2 r k) = wtOf x1 r (flatH k) (flatW k) := by
  rw [Read.val_main_v49_apply]
  refine congrArg (Read.val_main_v47 (F := Ideal) x1) (funext fun a => Fin.ext ?_)
  have hr := r.isLt
  have hk := k.isLt
  match a with
  | ⟨0, _⟩ => show (r.val * 9216 + k.val) / 9216 = r.val; omega
  | ⟨1, _⟩ => show (r.val * 9216 + k.val) / 96 % 96 = k.val / 96; omega
  | ⟨2, _⟩ => show (r.val * 9216 + k.val) % 96 = k.val % 96; omega

/-! ## The three sums along a row -/

/-- The number of weighted positions of row r. -/
private theorem n_row (x1 : IVec S32x256x2 32) (r : Fin 8192) :
    Read.val_main_v50 (F := Ideal) x1 (ix1 r) = nR (wtOf x1 r) := by
  rw [Read.val_main_v50_apply, Read.val_main_cst_11_apply, Ideal.ofBits_def, Ideal.ofBits_zero_f32, zero_add]
  unfold nR
  refine Finset.sum_congr rfl fun k _ => ?_
  have hk : Read.idx_main_v50 (ix1 r) k = ix2 r k := funext fun a => by
    match a with | ⟨0, _⟩ => rfl | ⟨1, _⟩ => rfl
  exact (congrArg (Read.val_main_v49 (F := Ideal) x1) hk).trans (wt_at x1 r k)

private theorem n_at (x1 : IVec S32x256x2 32) (r : Fin 8192) (z : Fin 1) :
    Read.val_main_v51 (F := Ideal) x1 (ix2 r z) = nR (wtOf x1 r) := by
  have hz : Read.idx_main_v51 (ix2 r z) = ix1 r := funext fun a => by match a with | ⟨0, _⟩ => rfl
  exact (Read.val_main_v51_apply (F := Ideal) x1 (ix2 r z)).trans
    ((congrArg (Read.val_main_v50 (F := Ideal) x1) hz).trans (n_row x1 r))

/-- The weighted sum of row r. -/
private theorem s_row (x0 : FVec Ideal S32x256x96x96 .f32) (x1 : IVec S32x256x2 32) (r : Fin 8192) :
    Read.val_main_v53 (F := Ideal) x0 x1 (ix1 r) = sR (rowOf x0 r) (wtOf x1 r) := by
  rw [Read.val_main_v53_apply, Read.val_main_cst_12_apply, Ideal.ofBits_def, Ideal.ofBits_zero_f32, zero_add]
  unfold sR
  refine Finset.sum_congr rfl fun k _ => ?_
  have hk : Read.idx_main_v53 (ix1 r) k = ix2 r k := funext fun a => by
    match a with | ⟨0, _⟩ => rfl | ⟨1, _⟩ => rfl
  rw [hk, Read.val_main_v52_apply, Ideal.mulf_def, cv_at x0 r k, wt_at x1 r k]

private theorem s_at (x0 : FVec Ideal S32x256x96x96 .f32) (x1 : IVec S32x256x2 32) (r : Fin 8192) (z : Fin 1) :
    Read.val_main_v54 (F := Ideal) x0 x1 (ix2 r z) = sR (rowOf x0 r) (wtOf x1 r) := by
  have hz : Read.idx_main_v54 (ix2 r z) = ix1 r := funext fun a => by match a with | ⟨0, _⟩ => rfl
  exact (Read.val_main_v54_apply (F := Ideal) x0 x1 (ix2 r z)).trans
    ((congrArg (Read.val_main_v53 (F := Ideal) x0 x1) hz).trans (s_row x0 x1 r))

/-- The weighted mean of row r. -/
private theorem mu_at (x0 : FVec Ideal S32x256x96x96 .f32) (x1 : IVec S32x256x2 32) (r : Fin 8192) (z : Fin 1) :
    Read.val_main_v55 (F := Ideal) x0 x1 (ix2 r z) = muR (rowOf x0 r) (wtOf x1 r) := by
  unfold muR
  rw [Read.val_main_v55_apply, Ideal.hostDivf_def, s_at x0 x1 r z, n_at x1 r z]

/-- The weighted deviation from the mean at position k of row r. -/
private theorem d_at (x0 : FVec Ideal S32x256x96x96 .f32) (x1 : IVec S32x256x2 32) (r : Fin 8192) (k : Fin 9216) :
    Read.val_main_v58 (F := Ideal) x0 x1 (ix2 r k) = dR (rowOf x0 r) (wtOf x1 r) k := by
  have hk : Read.idx_main_v56 (ix2 r k) = ix2 r (0 : Fin 1) := funext fun a => by
    match a with | ⟨0, _⟩ => rfl | ⟨1, _⟩ => rfl
  unfold dR
  rw [Read.val_main_v58_apply, Read.val_main_v57_apply, Read.val_main_v56_apply, hk, Ideal.mulf_def, Ideal.subf_def,
    mu_at x0 x1 r 0, cv_at x0 r k, wt_at x1 r k]

/-- The sum of the squared weighted deviations of row r. -/
private theorem q_row (x0 : FVec Ideal S32x256x96x96 .f32) (x1 : IVec S32x256x2 32) (r : Fin 8192) :
    Read.val_main_v60 (F := Ideal) x0 x1 (ix1 r)
      = ∑ k : Fin 9216, dR (rowOf x0 r) (wtOf x1 r) k * dR (rowOf x0 r) (wtOf x1 r) k := by
  rw [Read.val_main_v60_apply, Read.val_main_cst_13_apply, Ideal.ofBits_def, Ideal.ofBits_zero_f32, zero_add]
  refine Finset.sum_congr rfl fun k _ => ?_
  have hk : Read.idx_main_v60 (ix1 r) k = ix2 r k := funext fun a => by
    match a with | ⟨0, _⟩ => rfl | ⟨1, _⟩ => rfl
  rw [hk, Read.val_main_v59_apply, Ideal.mulf_def, d_at x0 x1 r k]

private theorem q_at (x0 : FVec Ideal S32x256x96x96 .f32) (x1 : IVec S32x256x2 32) (r : Fin 8192) (z : Fin 1) :
    Read.val_main_v61 (F := Ideal) x0 x1 (ix2 r z)
      = ∑ k : Fin 9216, dR (rowOf x0 r) (wtOf x1 r) k * dR (rowOf x0 r) (wtOf x1 r) k := by
  have hz : Read.idx_main_v61 (ix2 r z) = ix1 r := funext fun a => by match a with | ⟨0, _⟩ => rfl
  exact (Read.val_main_v61_apply (F := Ideal) x0 x1 (ix2 r z)).trans
    ((congrArg (Read.val_main_v60 (F := Ideal) x0 x1) hz).trans (q_row x0 x1 r))

/-- The pattern 0x3F800000 is the number one. -/
private theorem one_at (i : S8192x1.Idx) : Read.val_main_v62 (F := Ideal) i = 1 := by
  rw [Read.val_main_v62_apply, Read.val_main_cst_14_apply, Ideal.ofBits_def]
  simp [Ideal.ofBits, Ideal.ieee, -EReal.coe_mul]
  norm_num

/-- The variance of row r. -/
private theorem var_at (x0 : FVec Ideal S32x256x96x96 .f32) (x1 : IVec S32x256x2 32) (r : Fin 8192) (z : Fin 1) :
    Read.val_main_v64 (F := Ideal) x0 x1 (ix2 r z) = varR (rowOf x0 r) (wtOf x1 r) := by
  unfold varR
  rw [Read.val_main_v64_apply, Ideal.hostDivf_def, Read.val_main_v63_apply, Ideal.subf_def, one_at, n_at x1 r z,
    q_at x0 x1 r z]

/-! ## The maximum along a row -/

/-- Row r with position k put back on the flattened axis is (r, k). -/
private theorem lift_row (h : S8192x9216.Reduces [1] S8192) (r : Fin 8192) (k : Fin 9216) :
    h.lift (ix1 r) k = ix2 r k := by
  funext c
  apply Fin.ext
  match c with
  | ⟨0, _⟩ => rfl
  | ⟨1, _⟩ => rfl

/-- From minus infinity, the fold of the maximum over the 9216 positions of row r. -/
private theorem max_row (x0 : FVec Ideal S32x256x96x96 .f32) (r : Fin 8192) :
    Read.val_main_v65 (F := Ideal) x0 (ix1 r) = maxR (rowOf x0 r) := by
  have h : S8192x9216.Reduces [1] S8192 := by decide
  have h0 : Read.val_main_cst_15 (F := Ideal) (Shape.Idx.first h_S_) = (⊥ : EReal) := by
    rw [Read.val_main_cst_15_apply, Ideal.ofBits_def]
    simp [Ideal.ofBits, Ideal.ieee]
  have hf : (Read.val_main_v48 (F := Ideal) x0 ∘ h.lift (ix1 r))
      = fun k : Fin 9216 => rowOf x0 r (flatH k) (flatW k) :=
    funext fun k => (congrArg (Read.val_main_v48 (F := Ideal) x0) (lift_row h r k)).trans (cv_at x0 r k)
  unfold Read.val_main_v65
  refine (Host.reduce_eq_fold_single FloatOps.maximumf _ _ reducesTo_S8192x9216_S8192_d1 h h_S_ (ix1 r)).trans ?_
  exact congrArg₂ (fun b f => Finset.fold max b f (Finset.univ : Finset (Fin 9216))) h0 hf

private theorem max_at (x0 : FVec Ideal S32x256x96x96 .f32) (r : Fin 8192) (z : Fin 1) :
    Read.val_main_v66 (F := Ideal) x0 (ix2 r z) = maxR (rowOf x0 r) := by
  have hz : Read.idx_main_v66 (ix2 r z) = ix1 r := funext fun a => by match a with | ⟨0, _⟩ => rfl
  exact (Read.val_main_v66_apply (F := Ideal) x0 (ix2 r z)).trans
    ((congrArg (Read.val_main_v65 (F := Ideal) x0) hz).trans (max_row x0 r))

/-! ## The ratio -/

private theorem col_row (x0 : FVec Ideal S32x256x96x96 .f32) (x1 : IVec S32x256x2 32) (r : Fin 8192) (z : Fin 1) :
    Read.val_main_v68 (F := Ideal) x0 x1 (ix2 r z) = psrR (rowOf x0 r) (wtOf x1 r) := by
  unfold psrR
  rw [Read.val_main_v68_apply, Ideal.hostDivf_def, Read.val_main_v67_apply, Ideal.subf_def, max_at x0 r z,
    mu_at x0 x1 r z, var_at x0 x1 r z]

/-- Row (i 0) of the column the reference divides at the end. -/
theorem col_at (x0 : FVec Ideal S32x256x96x96 .f32) (x1 : IVec S32x256x2 32) (i : S8192x1.Idx) :
    Read.val_main_v68 (F := Ideal) x0 x1 i
      = psrR (rowOf x0 (i 0)) (fun h w => Read.val_main_v47 (F := Ideal) x1 (ix3 (i 0) h w)) :=
  (congrArg (Read.val_main_v68 (F := Ideal) x0 x1) (eq_ix2 i)).trans (col_row x0 x1 (i 0) (i 1))

end Cert.ReferenceIdeal.RefRow

end
-- ==== Proof.RefVal.lean ====
/-
  The reference's result: the shared last stretch applied to the column of ratios in the reference's arrangement.
-/
import proofs.«430624_j36567351558144_2_alg».proof.Proof.Spec
import proofs.«430624_j36567351558144_2_alg».proof.Proof.RefIdx
import proofs.«430624_j36567351558144_2_alg».proof.Proof.RefRow
import proofs.«430624_j36567351558144_2_alg».proof.Proof.RefReadP

noncomputable section

namespace Cert.ReferenceIdeal.RefVal

open Idealize.ShloMosaic Idealize.ShloMosaic.ValueIdx Cert.ReferenceIdeal Cert.ReferenceIdeal.Gen Cert.Psr

/-- The shared last stretch over the reference's shape facts. -/
abbrev tailR : FVec Ideal S8192x1 .f32 → FVec Ideal S32x256 .f32 :=
  Cert.Psr.tail Facts₀.shapeCasts_S8192x1_S32x256 Facts₀.reducesTo_S32x256_S32_d1 Facts₀.h_S_ Facts₀.bcast_S32_S32x1_0 Facts₀.bcast_S_S32x1 Facts₀.bcast_S32x1_S32x256_0_1

/-- The column before the last stretch is the column of ratios. -/
theorem col_eq (x0 : FVec Ideal S32x256x96x96 .f32) (x1 : IVec S32x256x2 32) (hpk : ∀ j, (x1 j).toNat < 96) :
    Read.val_main_v68 (F := Ideal) x0 x1 = colR x0 x1 := by
  funext i
  rw [RefRow.col_at]
  unfold colR
  refine congrArg (psrR (rowOf x0 (i 0))) (funext fun h => funext fun w => ?_)
  exact RefIdx.weights_at x1 hpk (i 0) h w

/-- The reference's result is the last stretch of that column. -/
theorem result_eq (x0 : FVec Ideal S32x256x96x96 .f32) (x1 : IVec S32x256x2 32) :
    Read.val_main_v77 (F := Ideal) x0 x1 = tailR (Read.val_main_v68 (F := Ideal) x0 x1) := by
  rfl

end Cert.ReferenceIdeal.RefVal

end
-- ==== Proof.lean ====
/-
  Peak-to-sidelobe saliency: the Pallas kernel against its jnp reference, over the extended reals.

  For each of the 8192 (batch, channel) rows both programs weight the 96 x 96 plane by 1 outside the 5 x 5 window
  around the row's peak (cut at the border) and by 0 inside it, and form (max - mean) / variance of the weighted
  plane; then they divide each row's ratio by its batch's mean ratio plus a small constant.

  The kernel builds the weights from interval tests on the two axes and takes the variance as
  (sum of weighted squares - n * mean * mean) / (n - 1), every sum taken along a line and then over the lines.
  The reference writes zeros at the 25 clipped positions around the peak into an array of ones and takes the
  variance as the sum of ((x - mean) * weight)^2 over (n - 1), every sum taken over the flattened plane.

  For a peak inside the plane the 25 clipped positions are exactly the window the interval tests describe, so the
  weights are the same 0/1 array; on real entries the two variance formulas are one number (the weights square to
  themselves and n is a positive real); sums and maxima do not depend on how the plane is traversed.  So the two
  columns of ratios are equal row by row, and the last stretch is the same function of the column in both programs.

  The precondition is used twice: every entry of the cost volume is finite (the variance identity is an identity
  of real numbers), and every peak coordinate lies in 0 .. 95 (outside that range the clipped positions and the
  interval tests describe different windows).
-/
import proofs.«430624_j36567351558144_2_alg».proof.Defs
import proofs.«430624_j36567351558144_2_alg».proof.Proof.Gen.Kernel
import proofs.«430624_j36567351558144_2_alg».proof.Proof.Gen.Kernel.Skeleton
import proofs.«430624_j36567351558144_2_alg».proof.Proof.Gen.Kernel.Launch
import proofs.«430624_j36567351558144_2_alg».proof.Proof.Gen.Kernel.Points
import proofs.«430624_j36567351558144_2_alg».proof.Proof.Gen.Kernel.Frame
import proofs.«430624_j36567351558144_2_alg».proof.Proof.Gen.KernelIdeal
import proofs.«430624_j36567351558144_2_alg».proof.Proof.Gen.KernelIdeal.Skeleton
import proofs.«430624_j36567351558144_2_alg».proof.Proof.Gen.KernelIdeal.Launch
import proofs.«430624_j36567351558144_2_alg».proof.Proof.Gen.KernelIdeal.Points
import proofs.«430624_j36567351558144_2_alg».proof.Proof.Gen.KernelIdeal.Frame
import proofs.«430624_j36567351558144_2_alg».proof.Proof.Gen.ReferenceIdeal
import proofs.«430624_j36567351558144_2_alg».proof.Proof.Gen.Pre_finite_inputs
import proofs.«430624_j36567351558144_2_alg».proof.Proof.RefRun
import proofs.«430624_j36567351558144_2_alg».proof.Proof.Spec
import proofs.«430624_j36567351558144_2_alg».proof.Proof.Algebra
import proofs.«430624_j36567351558144_2_alg».proof.Proof.PreDecode
import proofs.«430624_j36567351558144_2_alg».proof.Proof.KernelValue
import proofs.«430624_j36567351558144_2_alg».proof.Proof.RefVal
import Idealize.ShloMosaic.Adequacy
import Idealize.ShloMosaic.Init

noncomputable section

namespace Cert.Proof

open Idealize.ShloMosaic Idealize.ShloMosaic.TcCoe Idealize.SL.Sem Cert.Psr

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.HandRun.run (F := Ideal) m ρ)

/-- Both programs end with the shared last stretch applied to one column of ratios. -/
theorem algebraic : Cert.algebraic_KernelIdeal_ReferenceIdeal := by
  intro m ρ m' ρ' hpre hagree
  have hdec := fun c => Cert.PreDecode.of_pre _ _ (hpre c)
  have hcv : ∀ c i, ∃ r : ℝ, Cert.KernelIdeal.Val.cvOf m c i = (r : EReal) := fun c => (hdec c).1
  have hpk : ∀ c j, (Cert.KernelIdeal.Val.pkOf m c j).toNat < 96 := fun c => (hdec c).2
  refine ⟨fun c => Cert.KernelIdeal.Val.tailK (colK (Cert.KernelIdeal.Val.cvOf m c) (Cert.KernelIdeal.Val.pkOf m c)),
    Cert.KernelIdeal.Val.run m ρ hpk, ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.RefVal.result_eq, (hagree c).1, (hagree c).2,
    Cert.ReferenceIdeal.RefVal.col_eq _ _ (hpk c), ← colK_eq_colR _ _ (hcv c) (hpk c)]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
